-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "pos_big" .f32 0x7149F2CA#32 ⊤
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S1000x1024 : Shape := ⟨2, ![1000, 1024]⟩
abbrev S_ : Shape := ⟨0, ![]⟩
abbrev S1000 : Shape := ⟨1, ![1000]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S8192 : S_.BroadcastsInDim S8192 (![] : Fin 0 → Fin S8192.rank)
  reducesTo_S8192_S_d0 : S8192.ReducesTo [0] S_
  reducesTo_S1000x1024_S1000_d1 : S1000x1024.ReducesTo [1] S1000
  bcast_S_S1000 : S_.BroadcastsInDim S1000 (![] : Fin 0 → Fin S1000.rank)
  reducesTo_S1000_S_d0 : S1000.ReducesTo [0] S_

variable [Facts]

def fn_part1 {F : FTy → Type} [FloatOps F] (main_arg2 : FVec F S1000x1024 .f32) (main_v12 : IVec S_ 1) (main_v15 : IVec S_ 1) : IVec S_ 1 :=
  let main_v16 : IVec S_ 1 := andi main_v12 main_v15
  let main_v17 : FVec F S1000x1024 .f32 := mulf main_arg2 main_arg2
  let main_cst_6 : FVec F S_ .f32 := constant S_ .f32 0x00000000#32
  let main_v18 : FVec F S1000 .f32 := (fun x v => Host.reduceAdd x v reducesTo_S1000x1024_S1000_d1 h_S_) main_v17 main_cst_6
  let main_cst_7 : FVec F S_ .f32 := constant S_ .f32 0x00000000#32
  let main_v19 : FVec F S1000 .f32 := broadcastInDim S1000 ![] bcast_S_S1000 main_cst_7
  let main_v20 : IVec S1000 1 := cmpf .ogt main_v18 main_v19
  let main_c_8 : IVec S_ 1 := constantI S_ 1 1#1
  let main_v21 : IVec S_ 1 := (fun x v => Host.reduce IntOp.andi x v reducesTo_S1000_S_d0 h_S_) main_v20 main_c_8
  let main_v22 : IVec S_ 1 := andi main_v16 main_v21
  main_v22

def fn {F : FTy → Type} [FloatOps F] (main_arg0 : FVec F S8192x1024 .f32) (main_arg1 : IVec S8192 32) (main_arg2 : FVec F S1000x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 1000#32
  let main_v13 : IVec S8192 32 := broadcastInDim S8192 ![] bcast_S_S8192 main_c_4
  let main_v14 : IVec S8192 1 := cmpi .slt main_arg1 main_v13
  let main_c_5 : IVec S_ 1 := constantI S_ 1 1#1
  let main_v15 : IVec S_ 1 := (fun x v => Host.reduce IntOp.andi x v reducesTo_S8192_S_d0 h_S_) main_v14 main_c_5
  fn_part1 (F := F) main_arg2 main_v12 main_v15
-- ==== Kernel.lean ====
abbrev S8192x1024 : Shape := ⟨2, ![8192, 1024]⟩
abbrev S8192 : Shape := ⟨1, ![8192]⟩
abbrev S1000x1024 : Shape := ⟨2, ![1000, 1024]⟩
abbrev S_ : Shape := ⟨0, ![]⟩
abbrev S1024x1024 : Shape := ⟨2, ![1024, 1024]⟩
abbrev S8192x1 : Shape := ⟨2, ![8192, 1]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩
abbrev S1x512 : Shape := ⟨2, ![1, 512]⟩
abbrev S1024x512 : Shape := ⟨2, ![1024, 512]⟩
abbrev S512 : Shape := ⟨1, ![512]⟩
abbrev S8x1x128 : Shape := ⟨3, ![8, 1, 128]⟩
abbrev S1x1x128 : Shape := ⟨3, ![1, 1, 128]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1000x1024, .f32⟩
  | .hbm, ⟨3, _⟩ => ⟨S_, .i32⟩
  | .hbm, ⟨4, _⟩ => ⟨S_, .f32⟩
  | .hbm, ⟨5, _⟩ => ⟨S1024x1024, .f32⟩
  | .hbm, ⟨6, _⟩ => ⟨S8192x1, .i32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S8x1x128, .f32⟩
  | .hbm, ⟨11, _⟩ => ⟨S8x1x1, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1x512, .f32⟩
  | .local _ .vmem, ⟨7, _⟩ => ⟨S1x512, .f32⟩
  | .local _ .vmem, ⟨8, _⟩ => ⟨S1024x1024, .f32⟩
  | .local _ .vmem, ⟨9, _⟩ => ⟨S1024x1024, .f32⟩
  | .local _ .vmem, ⟨10, _⟩ => ⟨S1024x1, .i32⟩
  | .local _ .vmem, ⟨11, _⟩ => ⟨S1024x1, .i32⟩
  | .local _ .vmem, ⟨12, _⟩ => ⟨S1024x1024, .bf16⟩
  | .local _ .vmem, ⟨13, _⟩ => ⟨S1x1024, .f32⟩
  | .local _ .vmem, ⟨14, _⟩ => ⟨S1x1x128, .f32⟩
  | .local _ .vmem, ⟨15, _⟩ => ⟨S1x1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  pads_S1000x1024_S1024x1024_0240_000 : S1000x1024.Pads (![0, 0] : Fin 2 → Nat) ![24, 0] ![0, 0] S1024x1024
  h_S_ : 0 < S_.numel
  shapeCasts_S8192_S8192x1 : S8192.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  iota_S1024x512_d0_w32 : S1024x512.Iotas .tc 32 [0]
  iota_S1024x512_d1_w32 : S1024x512.Iotas .tc 32 [1]
  reduces_S1024x512_S512 : S1024x512.Reduces [0] S512
  shapeCasts_S512_S1x512 : S512.ShapeCasts S1x512
  iota_S1x512_d1_w32 : S1x512.Iotas .tc 32 [1]
  inb_S1x512_S1x512_0_0 : ∀ a, (![0, 0] : Fin 2 → Nat) a + S1x512.size a ≤ S1x512.size a
  h_S1x512 : 0 < S1x512.numel
  transposes_S1024x1024_p1_0_S1024x1024 : S1024x1024.Transposes [1, 0] S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  dot_S1024x1024_S1024x512_S1024x512_1_0_0_1_n_n_wf : DotDims.WF S1024x1024 S1024x512 S1024x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x1024.size a
  hwx1_0 : ∀ i : grid1.Coords, EltTy.bits .bf16 = 32 ∨ (Rect.block (s := S1024x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .i32 = 32 ∨ (Rect.block (s := S8192x1) S1024x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S8x1x128.size a
  hwx2_4 : ∀ i : grid2.Coords, EltTy.bits .f32 = 32 ∨ (Rect.block (s := S8x1x128) S1x1x128.size (cc2_transform_4 i) (hinb2_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1024x1024.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1024x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_1) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x1x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S8192 : Shape := ⟨1, ![8192]⟩
abbrev S1000x1024 : Shape := ⟨2, ![1000, 1024]⟩
abbrev S_ : Shape := ⟨0, ![]⟩
abbrev S1000 : Shape := ⟨1, ![1000]⟩
abbrev S1000x1 : Shape := ⟨2, ![1000, 1]⟩
abbrev S1024x1000 : Shape := ⟨2, ![1024, 1000]⟩
abbrev S8192x1000 : Shape := ⟨2, ![8192, 1000]⟩
abbrev S8192x1 : Shape := ⟨2, ![8192, 1]⟩
abbrev S8192x2 : Shape := ⟨2, ![8192, 2]⟩
abbrev S1x1000 : Shape := ⟨2, ![1, 1000]⟩
abbrev S1000x1000 : Shape := ⟨2, ![1000, 1000]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1000x1024, .f32⟩
  | .hbm, ⟨3, _⟩ => ⟨S1000x1024, .f32⟩
  | .hbm, ⟨4, _⟩ => ⟨S_, .f32⟩
  | .hbm, ⟨5, _⟩ => ⟨S1000, .f32⟩
  | .hbm, ⟨6, _⟩ => ⟨S1000x1, .f32⟩
  | .hbm, ⟨7, _⟩ => ⟨S1000x1, .f32⟩
  | .hbm, ⟨8, _⟩ => ⟨S1000x1024, .f32⟩
  | .hbm, ⟨9, _⟩ => ⟨S1000x1024, .f32⟩
  | .hbm, ⟨10, _⟩ => ⟨S1024x1000, .f32⟩
  | .hbm, ⟨11, _⟩ => ⟨S8192x1000, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x1, .i32⟩
  | .hbm, ⟨29, _⟩ => ⟨S8192x2, .i32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .i32⟩
  | .hbm, ⟨35, _⟩ => ⟨S1000, .i32⟩
  | .hbm, ⟨36, _⟩ => ⟨S1x1000, .i32⟩
  | .hbm, ⟨37, _⟩ => ⟨S8192x1000, .i32⟩
  | .hbm, ⟨38, _⟩ => ⟨S8192x1000, .i32⟩
  | .hbm, ⟨39, _⟩ => ⟨S8192x1000, .i1⟩
  | .hbm, ⟨40, _⟩ => ⟨S_, .f32⟩
  | .hbm, ⟨41, _⟩ => ⟨S8192x1000, .f32⟩
  | .hbm, ⟨42, _⟩ => ⟨S8192x1000, .f32⟩
  | .hbm, ⟨43, _⟩ => ⟨S_, .f32⟩
  | .hbm, ⟨44, _⟩ => ⟨S_, .f32⟩
  | .hbm, ⟨45, _⟩ => ⟨S8192x1000, .f32⟩
  | .hbm, ⟨46, _⟩ => ⟨S8192x1000, .f32⟩
  | .hbm, ⟨47, _⟩ => ⟨S_, .f32⟩
  | .hbm, ⟨48, _⟩ => ⟨S8192, .f32⟩
  | .hbm, ⟨49, _⟩ => ⟨S1024x1000, .f32⟩
  | .hbm, ⟨50, _⟩ => ⟨S1000x1000, .f32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S8192x1000, .f32⟩
  | .hbm, ⟨60, _⟩ => ⟨S_, .f32⟩
  | .hbm, ⟨61, _⟩ => ⟨S8192x1000, .f32⟩
  | .hbm, ⟨62, _⟩ => ⟨S8192x1000, .f32⟩
  | .hbm, ⟨63, _⟩ => ⟨S_, .f32⟩
  | .hbm, ⟨64, _⟩ => ⟨S_, .f32⟩
  | .hbm, ⟨65, _⟩ => ⟨S8192x1000, .f32⟩
  | .hbm, ⟨66, _⟩ => ⟨S8192x1000, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call3_cst : Ref sig .tc := ⟨.hbm, 73, rfl⟩
abbrev main_call3_v0 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_call4_cst : Ref sig .tc := ⟨.hbm, 79, rfl⟩
abbrev main_call4_v0 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩

abbrev nD : Nat := 1
abbrev τ : Topo := Topo.v7x

variable {F : FTy → Type} [FloatOps F]

class Facts₀ : Prop where
  reducesTo_S1000x1024_S1000_d1 : S1000x1024.ReducesTo [1] S1000
  h_S_ : 0 < S_.numel
  bcast_S1000_S1000x1_0 : S1000.BroadcastsInDim S1000x1 (![0] : Fin 1 → Fin S1000x1.rank)
  bcast_S1000x1_S1000x1024_0_1 : S1000x1.BroadcastsInDim S1000x1024 (![0, 1] : Fin 2 → Fin S1000x1024.rank)
  transposes_S1000x1024_S1024x1000_1_0 : S1000x1024.Transposes [1, 0] S1024x1000
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  reducesTo_S8192x1000_S8192_d1 : S8192x1000.ReducesTo [1] S8192
  reducesTo_S8192_S_d0 : S8192.ReducesTo [0] S_
  dot_S8192x1024_S1024x1000_S8192x1000_1_0_0_1_n_n_wf : DotDims.WF S8192x1024 S1024x1000 S8192x1000 [1] [0] [0] [1] [] []
  gather_S8192x1000_S8192x2_S8192_n_01_n_n_01_1_11_wf : GatherDims.WF S8192x1000 S8192x2 S8192 [] [0, 1] [] [0, 1] [] 1 ![1, 1]
  dot_S1000x1024_S1024x1000_S1000x1000_1_0_0_1_n_n_wf : DotDims.WF S1000x1024 S1024x1000 S1000x1000 [1] [0] [0] [1] [] []
  gather_S1000x1000_S8192x1_S8192x1000_1_0_n_n_0_1_11000_wf : GatherDims.WF S1000x1000 S8192x1 S8192x1000 [1] [0] [] [0] [] 1 ![1, 1000]

variable [Facts₀]

def dot_S8192x1024_S1024x1000_S8192x1000_1_0_0_1_n_n : DotDims S8192x1024 S1024x1000 S8192x1000 where
  lhsContracting := [1]
  rhsContracting := [0]
  lhsNonContracting := [0]
  rhsNonContracting := [1]
  lhsBatch := []
  rhsBatch := []
  wf := dot_S8192x1024_S1024x1000_S8192x1000_1_0_0_1_n_n_wf
def gather_S8192x1000_S8192x2_S8192_n_01_n_n_01_1_11 : GatherDims S8192x1000 S8192x2 S8192 where
  offsetDims := []
  collapsedSliceDims := [0, 1]
  operandBatchingDims := []
  startIndicesBatchingDims := []
  startIndexMap := [0, 1]
  indexVectorDim := 1
  sliceSizes := ![1, 1]
  wf := gather_S8192x1000_S8192x2_S8192_n_01_n_n_01_1_11_wf
def dot_S1000x1024_S1024x1000_S1000x1000_1_0_0_1_n_n : DotDims S1000x1024 S1024x1000 S1000x1000 where
  lhsContracting := [1]
  rhsContracting := [0]
  lhsNonContracting := [0]
  rhsNonContracting := [1]
  lhsBatch := []
  rhsBatch := []
  wf := dot_S1000x1024_S1024x1000_S1000x1000_1_0_0_1_n_n_wf
def gather_S1000x1000_S8192x1_S8192x1000_1_0_n_n_0_1_11000 : GatherDims S1000x1000 S8192x1 S8192x1000 where
  offsetDims := [1]
  collapsedSliceDims := [0]
  operandBatchingDims := []
  startIndicesBatchingDims := []
  startIndexMap := [0]
  indexVectorDim := 1
  sliceSizes := ![1, 1000]
  wf := gather_S1000x1000_S8192x1_S8192x1000_1_0_n_n_0_1_11000_wf

class Facts : Prop extends Facts₀ where

variable [Facts]
-- ==== Proof.Spec.lean ====
/-
  The two programs' results as closed formulas over plain coordinate functions, on the extended reals.

  Inputs: the batch `X i d` (8192 rows of 1024), the class label of each row `lb i` (one of 1000 classes), the class
  centres `C o d` (1000 rows of 1024).

  The reference normalises each centre by its Euclidean norm, takes every row's cosine similarity to every normalised
  centre, and forms per row: the distance to its own class `1 - s(i, lb i)`; the least distance to another class,
  `min over o ≠ lb i of 1 - s(i, o)`, written as a minimum over all classes with `⊤` at the own class; and the same least
  distance between its class's UNnormalised centre and the other normalised centres. The loss is the mean over the
  batch of two hinge terms.

  The kernel pads the centres with 24 zero rows to 1024, normalises with a divisor that is `1` wherever the norm is not
  positive, tabulates per class the least centre-to-centre distance (a minimum over the padded range with `⊤` at the
  class itself and at the padding), and per row reads its own similarity and its table entry by a sum against the
  one-hot row of its label, and the least distance to another class as `1 - max` over the padded range with `⊥` at the own
  class and at the padding. It sums each tile of 1024 rows, then the 8 tile sums.
-/
import Idealize.ShloMosaic.PureOps.Ideal

noncomputable section

open scoped BigOperators

namespace Cert.Spec

open Idealize.ShloMosaic

/-- The f32 word of `1.0`, read at the extended reals. -/
abbrev one : EReal := Ideal.ofBits .f32 0x3F800000#32
/-- The f32 word nearest `1.4` (the second hinge's margin). -/
abbrev margin : EReal := Ideal.ofBits .f32 0x3FB33333#32
/-- The f32 word of `8192.0` (the batch size the sum is divided by). -/
abbrev batch : EReal := Ideal.ofBits .f32 0x46000000#32

/-! ## The reference -/

section Reference
variable (X : Fin 8192 → Fin 1024 → EReal) (lb : Fin 8192 → Fin 1000) (C : Fin 1000 → Fin 1024 → EReal)

/-- A centre's Euclidean norm. -/
def rNorm (o : Fin 1000) : EReal := Ideal.sqrt (∑ d, C o d * C o d)
/-- The normalised centres. -/
def rNc (o : Fin 1000) (d : Fin 1024) : EReal := Ideal.div (C o d) (rNorm C o)
/-- Row `i`'s similarity to class `o`. -/
def rSims (i : Fin 8192) (o : Fin 1000) : EReal := ∑ d, X i d * rNc C o d
/-- Distance to the own class. -/
def rPos (i : Fin 8192) : EReal := one - rSims X C i (lb i)
/-- Least distance to another class. -/
def rNeg (i : Fin 8192) : EReal :=
  Finset.univ.fold min ⊤ (fun o : Fin 1000 => if lb i = o then ⊤ else one - rSims X C i o)
/-- An unnormalised centre against a normalised one. -/
def rC2c (l o : Fin 1000) : EReal := ∑ d, C l d * rNc C o d
/-- Least centre-to-centre distance from row `i`'s class to another class. -/
def rNegC2c (i : Fin 8192) : EReal :=
  Finset.univ.fold min ⊤ (fun o : Fin 1000 => if lb i = o then ⊤ else one - rC2c C (lb i) o)
/-- Row `i`'s loss: two hinge terms. -/
def rLoss (i : Fin 8192) : EReal :=
  max (rPos X lb C i + one - rNeg X lb C i) 0 + max (margin - rNegC2c lb C i) 0
/-- The reference's result: the mean loss. -/
def rResult : EReal := Ideal.div (∑ i, rLoss X lb C i) batch

end Reference

/-! ## The kernel -/

/-- The centres padded with zero rows to 1024. -/
def padC (C : Fin 1000 → Fin 1024 → EReal) (o d : Fin 1024) : EReal :=
  if h : o.val < 1000 then C ⟨o.val, h⟩ d else 0

/-- Row `r` of tile `t`. -/
def row (t : Fin 8) (r : Fin 1024) : Fin 8192 := ⟨t.val * 1024 + r.val, by omega⟩

/-- Class `l` of half `t` (the table is made in two halves of 512 classes). -/
def col (t : Fin 2) (l : Fin 512) : Fin 1024 := ⟨t.val * 512 + l.val, by omega⟩

section Kernel
variable (X : Fin 8192 → Fin 1024 → EReal) (lb : Fin 8192 → Fin 1000) (P : Fin 1024 → Fin 1024 → EReal)

/-- A padded centre's norm. -/
def kNorm (o : Fin 1024) : EReal := Ideal.sqrt (∑ d, P o d * P o d)
/-- The divisor: the norm where it is positive, else `1`. -/
def kSafe (o : Fin 1024) : EReal := if 0 < kNorm P o then kNorm P o else one
/-- The kernel's normalised centres. -/
def kNc (o d : Fin 1024) : EReal := Ideal.div (P o d) (kSafe P o)
/-- Normalised centre `o` against unnormalised centre `l`. -/
def kM (o l : Fin 1024) : EReal := ∑ d, kNc P o d * P l d
/-- The per-class table: least centre-to-centre distance, `0` on the padding. -/
def kN2 (l : Fin 1024) : EReal :=
  if l.val < 1000 then
    Finset.univ.fold min ⊤ (fun o : Fin 1024 => if o = l ∨ 1000 ≤ o.val then ⊤ else one - kM P o l)
  else 0
/-- Row `i`'s similarity to padded class `o`. -/
def kSims (i : Fin 8192) (o : Fin 1024) : EReal := ∑ d, X i d * kNc P o d
/-- Distance to the own class, by a sum against the label's one-hot row. -/
def kPos (i : Fin 8192) : EReal := one - ∑ o : Fin 1024, if (lb i).val = o.val then kSims X P i o else 0
/-- Least distance to another class, as `1 - max`. -/
def kNeg (i : Fin 8192) : EReal :=
  one - Finset.univ.fold max ⊥ (fun o : Fin 1024 => if (lb i).val = o.val ∨ ¬ o.val < 1000 then ⊥ else kSims X P i o)
/-- The table entry of the row's class, by a sum against the one-hot row. -/
def kC2c (i : Fin 8192) : EReal := ∑ o : Fin 1024, if (lb i).val = o.val then kN2 P o else 0
/-- Row `i`'s loss. -/
def kLoss (i : Fin 8192) : EReal :=
  max (kPos X lb P i + one - kNeg X lb P i) 0 + max (margin - kC2c lb P i) 0
/-- A tile's sum. -/
def kTile (t : Fin 8) : EReal := ∑ r : Fin 1024, kLoss X lb P (row t r)

end Kernel

/-- The kernel's result: the 8 tile sums, summed and divided by the batch size. -/
def kResult (X : Fin 8192 → Fin 1024 → EReal) (lb : Fin 8192 → Fin 1000) (C : Fin 1000 → Fin 1024 → EReal) : EReal :=
  Ideal.div (∑ t : Fin 8, kTile X lb (padC C) t) batch

end Cert.Spec

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KHost.lean ====
/-
  The host operations around the three regions, read at an index.

  Before region 0: the centres are padded with 24 zero rows (the padding value is the integer 0 converted to a float,
  which is the real 0), the labels are viewed as a column, and the batch is untouched. After region 2: entry (t, 0, 0)
  of each tile's block is taken, the 8 entries are summed from 0 and the sum is divided by the word of 8192.
-/
import proofs.«431374_j15917148799611_3_alg».proof.Proof.FrameKernelIdealP
import proofs.«431374_j15917148799611_3_alg».proof.Proof.Spec
import proofs.«431374_j15917148799611_3_alg».proof.Proof.LibColumn
import Idealize.ShloMosaic.Lib.KernelVsHost
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Host

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Before region 0 -/

/-- The padded centres are the host's `pad` of the centres argument. -/
theorem W3_v0_eq (c : Dev nD) :
    (W3 m ρ c (Proc.devRef .tc main_v0) : S1024x1024.Idx → EReal)
      = pad S1024x1024 ![0, 0] ![24, 0] ![0, 0] (m ((c : Thread nD τ).loc main_arg2) : S1000x1024.Idx → EReal)
          (sitofp (F := Ideal) .f32 (constantI S_ 32 0#32) : S_.Idx → EReal) pads_S1000x1024_S1024x1024_0240_000 h_S_ := by
  dsimp only [W3, W2, W1, W0, hostOps0_2, hostOps0_1, hostOps0]
  after_results
  rfl

/-- Entry (o, d) of the padded centres: the centre's entry on a real class, zero on the 24 padding rows. -/
theorem W3_v0 (c : Dev nD) (o d : Fin 1024) :
    (W3 m ρ c (Proc.devRef .tc main_v0) : S1024x1024.Idx → EReal) (ix2 o d)
      = Cert.Spec.padC (fun o d => (m ((c : Thread nD τ).loc main_arg2) : S1000x1024.Idx → EReal) (ix2 o d)) o d := by
  rw [W3_v0_eq]
  unfold Cert.Spec.padC
  by_cases h : o.val < 1000
  · rw [dif_pos h]
    refine pad_apply_of_inside _ _ _ _ _ _ _ (ix2 o d) (ix2 (⟨o.val, h⟩ : Fin 1000) d) fun a => ?_
    match a with
    | ⟨0, _⟩ => show o.val = 0 + o.val * (0 + 1); omega
    | ⟨1, _⟩ => show d.val = 0 + d.val * (0 + 1); omega
  · rw [dif_neg h]
    rw [pad_apply_of_not_inside _ _ _ _ _ _ _ (ix2 o d) (0 : Fin 2) (by
      show ¬(0 ≤ o.val ∧ (o.val - 0) % (0 + 1) = 0 ∧ (o.val - 0) / (0 + 1) < 1000)
      omega)]
    show (((0#32 : BitVec 32).toInt : ℝ) : EReal) = 0
    simp

/-- The label column is the labels argument viewed as [8192, 1]. -/
theorem W3_v1_eq (c : Dev nD) :
    (W3 m ρ c (Proc.devRef .tc main_v1) : S8192x1.Idx → BitVec 32)
      = shapeCast S8192x1 (m ((c : Thread nD τ).loc main_arg1) : S8192.Idx → BitVec 32) shapeCasts_S8192_S8192x1 := by
  dsimp only [W3, W2, W1, W0, hostOps0_2, hostOps0_1, hostOps0]
  after_results
  rfl

/-- Entry (i, 0) of the label column is label i. -/
theorem W3_v1 (c : Dev nD) (i : Fin 8192) :
    (W3 m ρ c (Proc.devRef .tc main_v1) : S8192x1.Idx → BitVec 32) (ix2 i (0 : Fin 1))
      = (m ((c : Thread nD τ).loc main_arg1) : S8192.Idx → BitVec 32) (ix1 i) := by
  rw [W3_v1_eq]
  exact Cert.LibColumn.shapeCast_a_a1_apply _ _ i 0

/-- The batch is as launched. -/
theorem W3_arg0 (c : Dev nD) : W3 m ρ c (Proc.devRef .tc main_arg0) = m ((c : Thread nD τ).loc main_arg0) := by
  dsimp only [W3, W2, W1, W0, hostOps0_2, hostOps0_1, hostOps0]
  after_results

/-! ## After region 2 -/

/-- The result: the 8 tile entries summed from zero, divided by the word of 8192. -/
theorem W7_v8 (c : Dev nD) :
    (W7 m ρ c (Proc.devRef .tc main_v8) : S_.Idx → EReal)
      = fun _ => Ideal.div (∑ t : Fin 8, (W6 m ρ c (Proc.devRef .tc main_v4) : S8x1x128.Idx → EReal) (ix3 t (0 : Fin 1) (0 : Fin 128)))
          Cert.Spec.batch := by
  have e : (W7 m ρ c (Proc.devRef .tc main_v8) : S_.Idx → EReal)
      = Host.divf (F := Ideal) (Host.reduceAdd (F := Ideal)
          (shapeCast S8 (extractStridedSlice S8x1x1 ![0, 0, 0] (W6 m ρ c (Proc.devRef .tc main_v4) : S8x1x128.Idx → EReal) slices_S8x1x128_S8x1x1_0_0_0) shapeCasts_S8x1x1_S8)
          (constant (F := Ideal) S_ .f32 0x00000000#32) reducesTo_S8_S_d0 h_S_) (constant (F := Ideal) S_ .f32 0x46000000#32) := by
    dsimp only [W7, hostOps3]
    after_results
    rfl
  rw [e]
  funext j
  show Ideal.div (Ideal.hostReduceAdd reducesTo_S8_S_d0 _ _ j) _ = _
  rw [Ideal.hostReduceAdd_total reducesTo_S8_S_d0 (fun b => b.elim0)]
  -- a sum over the rank-1 index set is the sum over its one coordinate
  have hs : ∀ f : S8.Idx → EReal, ∑ i, f i = ∑ t : Fin 8, f (ix1 t) := fun f =>
    Fintype.sum_equiv ⟨fun i => i 0, fun t => ix1 t, fun i => (eq_ix1 i).symm, fun _ => rfl⟩ _ _
      (fun i => congrArg f (eq_ix1 i))
  -- entry t of the flattened slice is entry (t, 0, 0) of the tile array
  have hterm : ∀ t : Fin 8,
      shapeCast S8 (extractStridedSlice S8x1x1 ![0, 0, 0] (W6 m ρ c (Proc.devRef .tc main_v4) : S8x1x128.Idx → EReal)
        slices_S8x1x128_S8x1x1_0_0_0) shapeCasts_S8x1x1_S8 (ix1 t)
        = (W6 m ρ c (Proc.devRef .tc main_v4) : S8x1x128.Idx → EReal) (ix3 t (0 : Fin 1) (0 : Fin 128)) := fun t => by
    rw [shapeCast_apply _ _ (ix1 t) (ix3 t (0 : Fin 1) (0 : Fin 1)) (by
      rw [Shape.rowMajor_val_three, Shape.rowMajor_val_one]
      show (t.val * 1 + 0) * 1 + 0 = t.val
      omega)]
    exact extractStridedSlice_apply _ _ _ _ (ix3 t (0 : Fin 1) (0 : Fin 128)) (fun a => by
      match a with
      | ⟨0, _⟩ => show t.val = 0 + t.val; omega
      | ⟨1, _⟩ => rfl
      | ⟨2, _⟩ => rfl)
  rw [hs]
  simp only [hterm, constant_apply, Ideal.ofBits_zero_f32, zero_add]

end Cert.KernelIdeal.Host

end
-- ==== Proof.KReg0.lean ====
/-
  Region 0 (the normalising kernel, one grid point): from the padded centres `P` as the region finds them, its first output array ends holding `P` itself (a change of float format is the identity on the extended reals) and its second the normalised centres `Spec.kNc P`: each entry divided by its row's norm where that is positive, by one where it is not.

  The grid has one point and every window's block there is its whole array, so what the one write-back leaves in an
  output array is the body's stored value computed from the whole input array. That value is read entry by entry: the
  row's sum of squares is the lane sum of the squared array, the norm its square root, the divisor the norm where the
  comparison with zero holds and one elsewhere, repeated across the row, and the entry is the quotient.
-/
import proofs.«431374_j15917148799611_3_alg».proof.Proof.FrameKernelIdealP
import proofs.«431374_j15917148799611_3_alg».proof.Proof.Spec
import proofs.«431374_j15917148799611_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.LibColumn

/-! ## The stored values, entry by entry -/

/-- A row's sum of squares: the lane sum of the squared array at row `o` is the sum over the row's coordinates
    (the index the reduction inserts coordinate `d` into, at row `o`, is `(o, d)`). -/
theorem sumsq_apply (x : FVec Ideal S1024x1024 .f32) (h : S1024x1024.Reduces [1] S1024) (hφ : FKind.Formats .f32)
    (hacc : (0x00000000#32 : BitVec 32) = FKind.add.neutral .f32 hφ) (o : Fin 1024) :
    multiReduction (F := Ideal) .add [1] S1024 (mulf x x) 0x00000000#32 h hφ hacc (ix1 o) = ∑ d : Fin 1024, x (ix2 o d) * x (ix2 o d) := by
  refine (Ideal.multiReduction_add_single (mulf x x) 0x00000000#32 h hφ hacc (ix1 o)).trans ?_
  refine Finset.sum_congr rfl fun d _ => ?_
  have e : h.lift (ix1 o) d = ix2 o d := by
    funext a; apply Fin.ext; match a with | ⟨0, _⟩ => rfl | ⟨1, _⟩ => rfl
  rw [e]; rfl

/-- The norm column: at row `o`, whatever the unit coordinate, the square root of the row's sum of squares. -/
theorem norm_apply (x : FVec Ideal S1024x1024 .f32) (h : S1024x1024.Reduces [1] S1024) (hφ : FKind.Formats .f32)
    (hacc : (0x00000000#32 : BitVec 32) = FKind.add.neutral .f32 hφ) (hc : S1024.ShapeCasts S1024x1) (o : Fin 1024) (u : Fin 1) :
    sqrt (shapeCast S1024x1 (multiReduction (F := Ideal) .add [1] S1024 (mulf x x) 0x00000000#32 h hφ hacc) hc) (ix2 o u)
      = Ideal.sqrt (∑ d : Fin 1024, x (ix2 o d) * x (ix2 o d)) :=
  congrArg Ideal.sqrt ((shapeCast_a_a1_apply _ hc o u).trans (sumsq_apply x h hφ hacc o))

/-- The divisor column repeated across a row: where the column's entry `r` at that row is greater than the zero word's
    value, which is `0`, the select takes `r`; elsewhere it takes the word of one. -/
theorem safe_apply (n : FVec Ideal S1024x1 .f32) (hb : S1024x1.Broadcasts S1024x1024) (o d : Fin 1024) (r : EReal)
    (hr : n (ix2 o (0 : Fin 1)) = r) :
    broadcastTo S1024x1024 (select (cmpf .ogt n (broadcast S1024x1 (Scalar.ofBits (F := Ideal) .f32 0x00000000#32))) n
        (broadcast S1024x1 (Scalar.ofBits (F := Ideal) .f32 0x3F800000#32))) hb (ix2 o d)
      = if 0 < r then r else Cert.Spec.one := by
  subst hr
  refine (broadcastTo_a1_ab_apply _ hb o d).trans ?_
  show Scalar.select (Ideal.cmp .ogt (n (ix2 o (0 : Fin 1))) (Ideal.ofBits .f32 0x00000000#32)) (n (ix2 o (0 : Fin 1))) (Ideal.ofBits .f32 0x3F800000#32) = _
  rw [Ideal.ofBits_zero_f32]
  unfold Scalar.select Ideal.cmp
  by_cases hpos : 0 < n (ix2 o (0 : Fin 1))
  · rw [if_pos hpos]; simp [hpos]
  · rw [if_neg hpos]; simp [hpos]

/-- The second output's stored value at an entry: the entry divided by its row's norm where that is positive, by one
    where it is not (the change of format is the identity, the cast of the array to its own shape too). -/
theorem pay3_apply (x : FVec Ideal S1024x1024 .f32) (P : Fin 1024 → Fin 1024 → EReal)
    (hx : ∀ o d : Fin 1024, x (ix2 o d) = P o d) (o d : Fin 1024) :
    k0_pay3 (F := Ideal) x (ix2 o d) = Cert.Spec.kNc P o d := by
  unfold k0_pay3 k0_pay1
  simp only [shapeCast_self]
  refine (congrArg (Ideal.div (x (ix2 o d)))
    (safe_apply _ broadcasts_S1024x1_S1024x1024 o d _ (norm_apply x _ _ _ _ o 0))).trans ?_
  unfold Cert.Spec.kNc Cert.Spec.kSafe Cert.Spec.kNorm
  simp only [hx]

/-- The first output's stored value at an entry: the entry itself. -/
theorem pay2_apply (x : FVec Ideal S1024x1024 .f32) (o d : Fin 1024) :
    k0_pay2 (F := Ideal) x (ix2 o d) = x (ix2 o d) := by
  unfold k0_pay2 k0_pay1
  simp only [shapeCast_self]
  rfl

/-! ## From the one block to the array -/

/- the TensorCore's buffer contents when the region is entered -/
variable (V : (c : Dev nD) → (b : Ref sig .tc) → Buf (Elt Ideal) ((c : Thread nD τ).loc b))

/-- The body's one rectangle starts at zero on both axes. -/
theorem hz : (![0, 0] : Fin 2 → Nat) = fun _ => 0 := funext fun a => by fin_cases a <;> rfl

/-- The input block at the one point is the whole input array: block (0, 0) of full extents, read through zero offsets. -/
theorem iblk_eq (c : Dev nD) (t : Fin cfg0.N) : (iblk0 V c 0 t : Vec Ideal S1024x1024 .f32) = V c main_v0 := by
  obtain rfl := fin_N0 t
  unfold iblk0
  have hz' : (fun a => win0_0.index t0_0 a * main_v0.ty.shape.size a) = fun _ => 0 := funext fun a => by fin_cases a <;> decide
  exact Memref.read_access_unit_zero (Elt Ideal) main_v0 hz' (fun a => by rw [congrFun hz' a]; simp) (V c main_v0)

/-- What the one point writes back to the first output is the whole-array stored value: the body's one store fills
    the buffer, from the whole input array, and the output's block (0, 0) of full extents is the array. -/
theorem flushed1_eq (c : Dev nD) (t : Fin cfg0.N) :
    (dat0 V c).flushed 1 t = ((cfg0.win 1).blk t).view.read (Elt Ideal) (k0_pay2 (F := Ideal) (V c main_v0)) := by
  show (cfg0.win 1).cut (grid0.coords t) ((dat0 V c).after 1 t) = _
  rw [after0_1]
  unfold out0_1
  rw [View.canon_unit_zero hz]
  simp only [View.ld_unit_zero (S := S1024x1024) hz]
  obtain rfl := fin_N0 t
  have hz' : (fun a => win0_1.index t0_0 a * main_v2_0.ty.shape.size a) = fun _ => 0 := funext fun a => by fin_cases a <;> decide
  rw [iblk_eq V c t0_0]
  exact (Memref.read_access_unit_zero (Elt Ideal) main_v2_0 hz' (fun a => by rw [congrFun hz' a]; simp) (k0_pay2 (F := Ideal) (V c main_v0))).symm

/-- The same for the second output. -/
theorem flushed2_eq (c : Dev nD) (t : Fin cfg0.N) :
    (dat0 V c).flushed 2 t = ((cfg0.win 2).blk t).view.read (Elt Ideal) (k0_pay3 (F := Ideal) (V c main_v0)) := by
  show (cfg0.win 2).cut (grid0.coords t) ((dat0 V c).after 2 t) = _
  rw [after0_2]
  unfold out0_2
  rw [View.canon_unit_zero hz]
  simp only [View.ld_unit_zero (S := S1024x1024) hz]
  obtain rfl := fin_N0 t
  have hz' : (fun a => win0_2.index t0_0 a * main_v2_1.ty.shape.size a) = fun _ => 0 := funext fun a => by fin_cases a <;> decide
  rw [iblk_eq V c t0_0]
  exact (Memref.read_access_unit_zero (Elt Ideal) main_v2_1 hz' (fun a => by rw [congrFun hz' a]; simp) (k0_pay3 (F := Ideal) (V c main_v0))).symm

/-- Every index of the first output array is in the one point's block: the block starts at 0 and has the array's
    extents on both axes. -/
theorem cover1 (i : S1024x1024.Idx) : ∃ t : Fin cfg0.N, (cfg0.win 1).flush t = true ∧ i ∈ ((cfg0.win 1).blk t).view.set :=
  ⟨t0_0, flush0_1 t0_0, by
    show i ∈ ((View.whole main_v2_0).slice (win0_1.rect t0_0)).set
    rw [View.set_slice_whole, Rect.mem_set_unit]
    intro a
    have h0 : (i 0 : Nat) < 1024 := (i 0).isLt
    have h1 : (i 1 : Nat) < 1024 := (i 1).isLt
    match a with
    | ⟨0, _⟩ => show win0_1.index t0_0 0 * win0_1.size 0 ≤ (i 0 : Nat) ∧ (i 0 : Nat) < win0_1.index t0_0 0 * win0_1.size 0 + win0_1.xsize (grid0.coords t0_0) 0
                rw [show win0_1.index t0_0 0 * win0_1.size 0 = 0 from by decide +kernel, show win0_1.xsize (grid0.coords t0_0) 0 = 1024 from by decide +kernel]; omega
    | ⟨1, _⟩ => show win0_1.index t0_0 1 * win0_1.size 1 ≤ (i 1 : Nat) ∧ (i 1 : Nat) < win0_1.index t0_0 1 * win0_1.size 1 + win0_1.xsize (grid0.coords t0_0) 1
                rw [show win0_1.index t0_0 1 * win0_1.size 1 = 0 from by decide +kernel, show win0_1.xsize (grid0.coords t0_0) 1 = 1024 from by decide +kernel]; omega⟩

/-- The same for the second output array. -/
theorem cover2 (i : S1024x1024.Idx) : ∃ t : Fin cfg0.N, (cfg0.win 2).flush t = true ∧ i ∈ ((cfg0.win 2).blk t).view.set :=
  ⟨t0_0, flush0_2 t0_0, by
    show i ∈ ((View.whole main_v2_1).slice (win0_2.rect t0_0)).set
    rw [View.set_slice_whole, Rect.mem_set_unit]
    intro a
    have h0 : (i 0 : Nat) < 1024 := (i 0).isLt
    have h1 : (i 1 : Nat) < 1024 := (i 1).isLt
    match a with
    | ⟨0, _⟩ => show win0_2.index t0_0 0 * win0_2.size 0 ≤ (i 0 : Nat) ∧ (i 0 : Nat) < win0_2.index t0_0 0 * win0_2.size 0 + win0_2.xsize (grid0.coords t0_0) 0
                rw [show win0_2.index t0_0 0 * win0_2.size 0 = 0 from by decide +kernel, show win0_2.xsize (grid0.coords t0_0) 0 = 1024 from by decide +kernel]; omega
    | ⟨1, _⟩ => show win0_2.index t0_0 1 * win0_2.size 1 ≤ (i 1 : Nat) ∧ (i 1 : Nat) < win0_2.index t0_0 1 * win0_2.size 1 + win0_2.xsize (grid0.coords t0_0) 1
                rw [show win0_2.index t0_0 1 * win0_2.size 1 = 0 from by decide +kernel, show win0_2.xsize (grid0.coords t0_0) 1 = 1024 from by decide +kernel]; omega⟩

/-- So the first output array ends holding the first stored value of the whole input array, -/
theorem final1 (c : Dev nD) : (dat0 V c).arrAt 1 cfg0.N = k0_pay2 (F := Ideal) (V c main_v0) :=
  (dat0 V c).arrAt_eq_of_cover 1 (k0_pay2 (F := Ideal) (V c main_v0)) (fun t _ => flushed1_eq V c t) cover1

/-- and the second the second. -/
theorem final2 (c : Dev nD) : (dat0 V c).arrAt 2 cfg0.N = k0_pay3 (F := Ideal) (V c main_v0) :=
  (dat0 V c).arrAt_eq_of_cover 2 (k0_pay3 (F := Ideal) (V c main_v0)) (fun t _ => flushed2_eq V c t) cover2

/-! ## The two outputs -/

/-- The first output: the padded centres, unchanged. -/
theorem centres (c : Dev nD) (P : Fin 1024 → Fin 1024 → EReal)
    (hP : ∀ o d : Fin 1024, (V c main_v0 : S1024x1024.Idx → EReal) (ix2 o d) = P o d) (o d : Fin 1024) :
    ((dat0 V c).arrAt 1 cfg0.N : S1024x1024.Idx → EReal) (ix2 o d) = P o d :=
  (congrFun (final1 V c) (ix2 o d)).trans ((pay2_apply (V c main_v0) o d).trans (hP o d))

/-- The second output: the normalised centres. -/
theorem normed (c : Dev nD) (P : Fin 1024 → Fin 1024 → EReal)
    (hP : ∀ o d : Fin 1024, (V c main_v0 : S1024x1024.Idx → EReal) (ix2 o d) = P o d) (o d : Fin 1024) :
    ((dat0 V c).arrAt 2 cfg0.N : S1024x1024.Idx → EReal) (ix2 o d) = Cert.Spec.kNc P o d :=
  (congrFun (final2 V c) (ix2 o d)).trans (pay3_apply (V c main_v0) P hP o d)

end Cert.KernelIdeal.Reg0

end
-- ==== Proof.KPay1.lean ====
/-
  Region 1's stored row at an index. At half `t` the body holds 512 centres (classes `col t l`) and all 1024 normalised centres; its row entry `l` is the table entry of class `col t l`: the minimum over the padded range, with +infinity at the class itself and on the padding, of one minus the product of normalised centre `o` with centre `col t l`; zero where the class is padding.

  The entries, one by one. The product at (o, l) is the sum over d of normalised centre `o` at d times the block's row `l` at d (the block enters transposed), and row `l` of the block is centre `col t l`. The lane's absolute column is the word t * 512 + l, below 2^31, so the integer tests read as facts about naturals: the mask at (o, l) holds exactly when o = col t l or 1000 ≤ o, and there the entry is the named fill, +infinity; elsewhere it is one minus the product. The minimum over the rows, started from the +infinity word, is the fold of min over o of these entries. The last test keeps the lane exactly when col t l < 1000, and puts the zero word otherwise.
-/
import proofs.«431374_j15917148799611_3_alg».proof.Proof.FrameKernelIdealP
import proofs.«431374_j15917148799611_3_alg».proof.Proof.Spec
import proofs.«431374_j15917148799611_3_alg».proof.Proof.LibColumn
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.KernelIdeal.Pay1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

/-! ## Constants -/

/-- The mask's fill is the extended real +infinity, by the certificate's table of named constants. -/
theorem pos_big_top : Named.named (F := Ideal) Cert.KernelIdeal.κ "pos_big" (φ := .f32) 0x7149F2CA#32 = (⊤ : EReal) :=
  IdealRules.named_const.ideal_named_scalar _ _ _ _ rfl

/-- The reduction's starting word is the IEEE +infinity. -/
theorem inf_word_top : Ideal.ofBits .f32 0x7F800000#32 = (⊤ : EReal) := by
  simp [Ideal.ofBits, Ideal.ieee]

/-- The accesses start at the origin. -/
theorem hz2 : (![0, 0] : Fin 2 → Nat) = fun _ => 0 :=
  funext fun a => by match a with | ⟨0, _⟩ => rfl | ⟨1, _⟩ => rfl

/-- The body's accesses are of whole buffers: the stored row is the payload of the two blocks. -/
theorem out1_2_eq_pay (i : grid1.Coords) (x0 : Vec Ideal S512x1024 .bf16) (x1 : Vec Ideal S1024x1024 .bf16) :
    out1_2 (F := Ideal) i x0 x1 = k1_pay1 (F := Ideal) i x0 x1 := by
  unfold out1_2
  rw [View.canon_unit_zero hz2]
  simp only [View.ld_unit_zero (S := S512x1024) hz2, View.ld_unit_zero (S := S1024x1024) hz2]

/-! ## The product of the normalised centres with the transposed block, at an index -/

/-- The left operand's row is the output's row. -/
theorem lhs_mm_0 (j : S1024x512.Idx) (q : dot_S1024x1024_S1024x512_S1024x512_1_0_0_1_n_n.contr.Idx) :
    (dot_S1024x1024_S1024x512_S1024x512_1_0_0_1_n_n.lhsIdx j q 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- The left operand's column is the contraction position. -/
theorem lhs_mm_1 (j : S1024x512.Idx) (q : dot_S1024x1024_S1024x512_S1024x512_1_0_0_1_n_n.contr.Idx) :
    (dot_S1024x1024_S1024x512_S1024x512_1_0_0_1_n_n.lhsIdx j q 1).val = (q ⟨0, by decide⟩).val :=
  dot_S1024x1024_S1024x512_S1024x512_1_0_0_1_n_n.lhsIdx_val_of_single rfl j q
/-- The right operand's row is the contraction position. -/
theorem rhs_mm_0 (j : S1024x512.Idx) (q : dot_S1024x1024_S1024x512_S1024x512_1_0_0_1_n_n.contr.Idx) :
    (dot_S1024x1024_S1024x512_S1024x512_1_0_0_1_n_n.rhsIdx j q 0).val = (q ⟨0, by decide⟩).val :=
  dot_S1024x1024_S1024x512_S1024x512_1_0_0_1_n_n.rhsIdx_val_of_single rfl j q
/-- The right operand's column is the output's column. -/
theorem rhs_mm_1 (j : S1024x512.Idx) (q : dot_S1024x1024_S1024x512_S1024x512_1_0_0_1_n_n.contr.Idx) :
    (dot_S1024x1024_S1024x512_S1024x512_1_0_0_1_n_n.rhsIdx j q 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- Into the zero accumulator, the product at (o, l) is the sum over d of the left operand at (o, d) times the right at (d, l). -/
theorem mm_apply (a : FVec Ideal S1024x1024 .bf16) (b : FVec Ideal S1024x512 .bf16) (o : Fin 1024) (l : Fin 512) :
    matmul dot_S1024x1024_S1024x512_S1024x512_1_0_0_1_n_n none a b (constant (F := Ideal) S1024x512 .f32 0x00000000#32) (ix2 o l)
      = ∑ d : Fin 1024, a (ix2 o d) * b (ix2 d l) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 o l) ((ValueIdx.contrEquiv1 dot_S1024x1024_S1024x512_S1024x512_1_0_0_1_n_n 1024 rfl rfl).symm k) = ix2 o k := funext fun c => Fin.ext (by
    match c with
    | ⟨0, _⟩ => exact lhs_mm_0 _ _
    | ⟨1, _⟩ => exact (lhs_mm_1 _ _).trans hk)
  have er : dot_S1024x1024_S1024x512_S1024x512_1_0_0_1_n_n.rhsIdx (ix2 o l) ((ValueIdx.contrEquiv1 dot_S1024x1024_S1024x512_S1024x512_1_0_0_1_n_n 1024 rfl rfl).symm k) = ix2 k l := funext fun c => Fin.ext (by
    match c with
    | ⟨0, _⟩ => exact (rhs_mm_0 _ _).trans hk
    | ⟨1, _⟩ => exact rhs_mm_1 _ _)
  rw [el, er]

/-! ## The minimum over the rows of a 1024 x 512 vector, at a lane -/

/-- A minimum-reduction over one axis is, at each reduced index, the fold of min from the accumulator's value over that axis's coordinates. -/
theorem minred_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row o inserted into the lane l is the index (o, l). -/
theorem lift_rows (h : S1024x512.Reduces [0] S512) (l : Fin 512) (o : Fin 1024) : h.lift (ix1 l) o = ix2 o l :=
  funext fun c => Fin.ext (by match c with | ⟨0, _⟩ => rfl | ⟨1, _⟩ => rfl)

/-- The minimum over the rows of a 1024 x 512 vector at lane l: the fold of min, from the accumulator's value, of the entries (o, l). -/
theorem minred_rows (src : FVec Ideal S1024x512 .f32) (acc : BitVec 32) (h : S1024x512.Reduces [0] S512)
    (hφ : FKind.Formats .f32) (hacc : acc = FKind.minimumf.neutral .f32 hφ) (l : Fin 512) :
    multiReduction .minimumf [0] S512 src acc h hφ hacc (ix1 l)
      = (Finset.univ : Finset (Fin 1024)).fold min (Ideal.ofBits .f32 acc) (fun o => src (ix2 o l)) := by
  refine (minred_single src acc h hφ hacc (ix1 l)).trans ?_
  exact Finset.fold_congr fun o _ => congrArg src (lift_rows h l o)

/-! ## The integer side: the masks decided to facts about naturals -/

/-- A one-bit "or" is set exactly when one of its operands is. -/
theorem ori_one_iff (c d : BitVec 1) : IntOp.ori c d = 1#1 ↔ c = 1#1 ∨ d = 1#1 := by revert c d; decide

/-- A select on a bit that is set exactly when p holds is the conditional on p. -/
theorem select_iff {α : Type} {c : BitVec 1} {p : Prop} [Decidable p] (h : c = 1#1 ↔ p) (a b : α) :
    Scalar.select c a b = if p then a else b := by
  unfold Scalar.select
  exact if_congr h rfl rfl

/-- The absolute column: lane l of half t, as a word, has the value t * 512 + l. -/
theorem word_col (n : ℕ) (t : Fin 2) (hn : n = t.val) (l : Fin 512) :
    (IntOp.addi (BitVec.ofNat 32 l.val) (Scalar.muli (BitVec.ofNat 32 n) 512#32)).toNat = t.val * 512 + l.val := by
  subst hn
  show (BitVec.ofNat 32 l.val + BitVec.ofNat 32 t.val * 512#32).toNat = _
  have hl := l.isLt
  have ht := t.isLt
  simp only [BitVec.toNat_add, BitVec.toNat_mul, BitVec.toNat_ofNat]
  omega

open Idealize.ShloMosaic.StableHlo.Predicate in
/-- The mask at (o, l): row o is the absolute column of lane l, or row o is padding. -/
theorem mask_iff (i : grid1.Coords) (t : Fin 2) (hi : (i 0).val = t.val)
    (h0 : S1024x512.Iotas .tc 32 [0]) (h1 : S1024x512.Iotas .tc 32 [1]) (o : Fin 1024) (l : Fin 512) :
    ori (cmpi .eq (iota .tc S1024x512 32 [0] h0) (addi (iota .tc S1024x512 32 [1] h1) (broadcast S1024x512 (Scalar.muli (BitVec.ofNat 32 (i 0).val) 512#32))))
      (cmpi .sge (iota .tc S1024x512 32 [0] h0) (broadcast S1024x512 1000#32)) (ix2 o l) = 1#1
      ↔ (o = Cert.Spec.col t l ∨ 1000 ≤ o.val) := by
  have e0 : iota .tc S1024x512 32 [0] h0 (ix2 o l) = BitVec.ofNat 32 o.val := iota_single_apply _ _ _ _ _ _
  have e1 : iota .tc S1024x512 32 [1] h1 (ix2 o l) = BitVec.ofNat 32 l.val := iota_single_apply _ _ _ _ _ _
  show IntOp.ori (IntOp.cmpi .eq (iota .tc S1024x512 32 [0] h0 (ix2 o l)) (IntOp.addi (iota .tc S1024x512 32 [1] h1 (ix2 o l)) (Scalar.muli (BitVec.ofNat 32 (i 0).val) 512#32)))
      (IntOp.cmpi .sge (iota .tc S1024x512 32 [0] h0 (ix2 o l)) 1000#32) = 1#1 ↔ _
  rw [e0, e1, ori_one_iff, cmpi_eq_iff]
  have ho := o.isLt
  have hl := l.isLt
  have ht := t.isLt
  have hw := word_col (i 0).val t hi l
  have hoN : (BitVec.ofNat 32 o.val).toNat = o.val := by rw [BitVec.toNat_ofNat]; omega
  rw [sge_iff_toNat (by rw [hoN]; omega) (by decide), hoN, ← BitVec.toNat_inj, hoN, hw]
  show (o.val = t.val * 512 + l.val ∨ 1000 ≤ o.val) ↔ _
  rw [Fin.ext_iff]
  exact Iff.rfl

open Idealize.ShloMosaic.StableHlo.Predicate in
/-- The final test at lane l: the absolute column is a class, not padding. -/
theorem keep_iff (i : grid1.Coords) (t : Fin 2) (hi : (i 0).val = t.val)
    (h1 : S1x512.Iotas .tc 32 [1]) (l : Fin 512) :
    cmpi .slt (addi (iota .tc S1x512 32 [1] h1) (broadcast S1x512 (Scalar.muli (BitVec.ofNat 32 (i 0).val) 512#32)))
      (broadcast S1x512 1000#32) (ix2 (0 : Fin 1) l) = 1#1
      ↔ (Cert.Spec.col t l).val < 1000 := by
  have e1 : iota .tc S1x512 32 [1] h1 (ix2 (0 : Fin 1) l) = BitVec.ofNat 32 l.val := iota_single_apply _ _ _ _ _ _
  show IntOp.cmpi .slt (IntOp.addi (iota .tc S1x512 32 [1] h1 (ix2 (0 : Fin 1) l)) (Scalar.muli (BitVec.ofNat 32 (i 0).val) 512#32)) 1000#32 = 1#1 ↔ _
  rw [e1]
  have hl := l.isLt
  have ht := t.isLt
  have hw := word_col (i 0).val t hi l
  rw [slt_iff_toNat (by rw [hw]; omega) (by decide), hw]
  exact Iff.rfl

/-- The stored row at `l` is the table entry of class `col t l`. -/
theorem out1_2_apply (i : grid1.Coords) (t : Fin 2) (hi : (i 0).val = t.val)
    (x0 : Vec Ideal S512x1024 .bf16) (x1 : Vec Ideal S1024x1024 .bf16) (P : Fin 1024 → Fin 1024 → EReal)
    (h0 : ∀ (l : Fin 512) (d : Fin 1024), x0 (ix2 l d) = P (Cert.Spec.col t l) d)
    (h1 : ∀ o d : Fin 1024, x1 (ix2 o d) = Cert.Spec.kNc P o d) (l : Fin 512) :
    out1_2 (F := Ideal) i x0 x1 (ix2 (0 : Fin 1) l) = Cert.Spec.kN2 P (Cert.Spec.col t l) := by
  rw [out1_2_eq_pay]
  unfold k1_pay1
  dsimp only
  rw [select_apply, select_iff (keep_iff i t hi _ l)]
  unfold Cert.Spec.kN2
  by_cases hc : (Cert.Spec.col t l).val < 1000
  · -- a class: the cast row is the reduced vector at lane l, the fold of min from +infinity over the rows
    rw [if_pos hc, if_pos hc, shapeCast_a_1a_apply]
    refine (minred_rows _ _ _ _ _ l).trans ?_
    rw [inf_word_top]
    refine Finset.fold_congr fun o _ => ?_
    rw [select_apply, select_iff (mask_iff i t hi _ _ o l)]
    refine if_congr Iff.rfl pos_big_top ?_
    -- off the mask: one minus the product of normalised centre o with centre col t l
    rw [subf_apply, broadcast_apply, mm_apply]
    unfold Cert.Spec.kM
    refine congrArg (Cert.Spec.one - ·) (Finset.sum_congr rfl fun d _ => ?_)
    rw [shapeCast_self, shapeCast_self, transpose_ix2_apply, h1, h0]
  · -- padding: the zero word
    rw [if_neg hc, if_neg hc]
    exact Ideal.ofBits_zero_f32

end Cert.KernelIdeal.Pay1

end
-- ==== Proof.KReg1.lean ====
/-
  Region 1 (the centre-to-centre table, two grid points of 512 classes each): from the padded centres `P` and their normalised form, the output row ends holding the table `Spec.kN2 P`: per class the least `1 - (normalised centre o) . (centre l)` over the other real classes `o`, and zero on the padding.
  Point `t` reads rows `512 t … 512 t + 511` of the centres and all the normalised centres, and writes columns `512 t … 512 t + 511` of the row: the table entries of those classes. The two halves fill the row, so the row is the table.
-/
import proofs.«431374_j15917148799611_3_alg».proof.Proof.FrameKernelIdealP
import proofs.«431374_j15917148799611_3_alg».proof.Proof.Spec
import proofs.«431374_j15917148799611_3_alg».proof.Proof.LibColumn
import proofs.«431374_j15917148799611_3_alg».proof.Proof.KPay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

/- the TensorCore's buffer contents when the region is entered -/
variable (V : (c : Dev nD) → (b : Ref sig .tc) → Buf (Elt Ideal) ((c : Thread nD τ).loc b))

/-- The block indices of the three windows, and the grid coordinate, at each of the two grid points: the centres' window
    moves down the rows with the point, the normalised centres' window stays, the output's window moves along the row. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ ((grid1.coords t) 0).val = t.val :=
  (by decide +kernel : ∀ t : Fin grid1.N, _)

/-- The half a grid point makes. -/
abbrev half (t : Fin cfg1.N) : Fin 2 := t.cast N_1

/-- At point `t` the centres' block holds rows `512 t … 512 t + 511` of the centres' array. -/
theorem centres_block (c : Dev nD) (t : Fin cfg1.N) (l : Fin 512) (d : Fin 1024) :
    (iblk1 V c 0 t : Vec Ideal S512x1024 .bf16) (ix2 l d)
      = (V c main_v2_0 : S1024x1024.Idx → EReal) (ix2 (Cert.Spec.col (half t) l) d) := by
  obtain ⟨e0, e1, -, -, -, -, -⟩ := block_indices t
  unfold iblk1
  rw [View.read_apply]
  show V c main_v2_0 _ = V c main_v2_0 _
  refine congrArg _ ?_
  funext a
  apply Fin.ext
  match a with
  | ⟨0, _⟩ => show win1_0.index t (0 : Fin 2) * 512 + 1 * l.val = t.val * 512 + l.val; rw [e0]; omega
  | ⟨1, _⟩ => show win1_0.index t (1 : Fin 2) * 1024 + 1 * d.val = d.val; rw [e1]; omega

/-- At either point the normalised centres' block is the whole array. -/
theorem normalised_block (c : Dev nD) (t : Fin cfg1.N) (o d : Fin 1024) :
    (iblk1 V c 1 t : Vec Ideal S1024x1024 .bf16) (ix2 o d)
      = (V c main_v2_1 : S1024x1024.Idx → EReal) (ix2 o d) := by
  obtain ⟨-, -, e2, e3, -, -, -⟩ := block_indices t
  unfold iblk1
  rw [View.read_apply]
  show V c main_v2_1 _ = V c main_v2_1 _
  refine congrArg _ ?_
  funext a
  apply Fin.ext
  match a with
  | ⟨0, _⟩ => show win1_1.index t (0 : Fin 2) * 1024 + 1 * o.val = o.val; rw [e2]; omega
  | ⟨1, _⟩ => show win1_1.index t (1 : Fin 2) * 1024 + 1 * d.val = d.val; rw [e3]; omega

/-- The table laid out as the output row: entry `(0, l)` is the table entry of class `l`. -/
abbrev tableRow (P : Fin 1024 → Fin 1024 → EReal) : S1x1024.Idx → EReal := fun y => Cert.Spec.kN2 P (y 1)

/-- What point `t`'s body stores, at an index of its block, is the table row's entry `512 t` columns further on. -/
theorem stored_row (t : Fin cfg1.N) (x0 : Vec Ideal S512x1024 .bf16) (x1 : Vec Ideal S1024x1024 .bf16)
    (P : Fin 1024 → Fin 1024 → EReal)
    (h0 : ∀ (l : Fin 512) (d : Fin 1024), x0 (ix2 l d) = P (Cert.Spec.col (half t) l) d)
    (h1 : ∀ o d : Fin 1024, x1 (ix2 o d) = Cert.Spec.kNc P o d)
    (j : S1x512.Idx) (k : S1x1024.Idx) (hk : (k 1).val = t.val * 512 + (j 1).val) :
    out1_2 (F := Ideal) (grid1.coords t) x0 x1 j = tableRow P k := by
  obtain ⟨u, l, rfl⟩ : ∃ (u : Fin 1) (l : Fin 512), j = ix2 u l := ⟨j 0, j 1, eq_ix2 j⟩
  obtain rfl : u = 0 := Subsingleton.elim _ _
  rw [Pay1.out1_2_apply (grid1.coords t) (half t) (block_indices t).2.2.2.2.2.2 x0 x1 P h0 h1 l]
  show Cert.Spec.kN2 P (Cert.Spec.col (half t) l) = Cert.Spec.kN2 P (k 1)
  refine congrArg _ (Fin.ext ?_)
  show t.val * 512 + l.val = (k 1).val
  rw [hk]

/-- What point `t` writes back is its block of the table row. -/
theorem written_back (c : Dev nD) (P : Fin 1024 → Fin 1024 → EReal)
    (hA : ∀ o d : Fin 1024, (V c main_v2_0 : S1024x1024.Idx → EReal) (ix2 o d) = P o d)
    (hB : ∀ o d : Fin 1024, (V c main_v2_1 : S1024x1024.Idx → EReal) (ix2 o d) = Cert.Spec.kNc P o d)
    (t : Fin cfg1.N) :
    (dat1 V c).flushed 2 t = ((cfg1.win 2).blk t).view.read (Elt Ideal) (tableRow P) := by
  obtain ⟨-, -, -, -, -, e5, -⟩ := block_indices t
  show (cfg1.win 2).cut (grid1.coords t) ((dat1 V c).after 2 t) = _
  rw [after1_2]
  funext j
  show out1_2 (F := Ideal) (grid1.coords t) (iblk1 V c 0 t) (iblk1 V c 1 t) j
    = tableRow P (((cfg1.win 2).blk t).view.emb j)
  refine stored_row t (iblk1 V c 0 t) (iblk1 V c 1 t) P ?_ ?_ j (((cfg1.win 2).blk t).view.emb j) ?_
  · intro l d; rw [centres_block, hA]
  · intro o d; rw [normalised_block, hB]
  · show win1_2.index t (1 : Fin 2) * 512 + 1 * (j 1).val = t.val * 512 + (j 1).val
    rw [e5]; omega

/-- An index of the output row is in point `t`'s block iff each coordinate is in the block's range on its axis. -/
theorem mem_half (t : Fin cfg1.N) (i : S1x1024.Idx) :
    i ∈ ((cfg1.win 2).blk t).view.set ↔ ∀ a : Fin 2, win1_2.index t a * S1x512.size a ≤ (i a).val
      ∧ (i a).val < win1_2.index t a * S1x512.size a + S1x512.size a := by
  show i ∈ ((View.whole main_v3).slice (win1_2.rect t)).set ↔ _
  rw [View.set_slice_whole, Rect.mem_set_unit]
  exact Iff.rfl

/-- The two blocks fill the row: column `l` lies in the block of point `l / 512`. -/
theorem halves_cover (i : S1x1024.Idx) :
    ∃ t : Fin cfg1.N, (cfg1.win 2).flush t = true ∧ i ∈ ((cfg1.win 2).blk t).view.set := by
  have hi0 : (i 0).val < 1 := (i 0).isLt
  have hi1 : (i 1).val < 1024 := (i 1).isLt
  obtain ⟨t, ht⟩ : ∃ t : Fin cfg1.N, t.val = (i 1).val / 512 :=
    ⟨⟨(i 1).val / 512, by rw [show cfg1.N = 2 from N_1]; omega⟩, rfl⟩
  obtain ⟨-, -, -, -, e4, e5, -⟩ := block_indices t
  refine ⟨t, flush1_2 t, ?_⟩
  rw [mem_half]
  intro a
  match a with
  | ⟨0, _⟩ =>
    show win1_2.index t (0 : Fin 2) * 1 ≤ (i 0).val ∧ (i 0).val < win1_2.index t (0 : Fin 2) * 1 + 1
    rw [e4]; omega
  | ⟨1, _⟩ =>
    show win1_2.index t (1 : Fin 2) * 512 ≤ (i 1).val ∧ (i 1).val < win1_2.index t (1 : Fin 2) * 512 + 512
    rw [e5, ht]; omega

/-- The output row is the table. -/
theorem table (c : Dev nD) (P : Fin 1024 → Fin 1024 → EReal)
    (hA : ∀ o d : Fin 1024, (V c main_v2_0 : S1024x1024.Idx → EReal) (ix2 o d) = P o d)
    (hB : ∀ o d : Fin 1024, (V c main_v2_1 : S1024x1024.Idx → EReal) (ix2 o d) = Cert.Spec.kNc P o d) (l : Fin 1024) :
    ((dat1 V c).arrAt 2 cfg1.N : S1x1024.Idx → EReal) (ix2 (0 : Fin 1) l) = Cert.Spec.kN2 P l := by
  have h := (dat1 V c).arrAt_eq_of_cover 2 (tableRow P) (fun t _ => written_back V c P hA hB t) halves_cover
  exact congrFun h (ix2 (0 : Fin 1) l)

end Cert.KernelIdeal.Reg1

end
-- ==== Proof.KPay2a.lean ====
/-
  Region 2's first per-row term at an index. At tile `t` the body holds rows `row t r` of the batch, their labels, and the normalised centres; entry `r` of the term is the distance to the own class plus one minus the least distance to another class: the similarity at the label read by a sum against the label's one-hot row, and `1 - max` of the similarities with -infinity at the own class and on the padding.
-/
import proofs.«431374_j15917148799611_3_alg».proof.Proof.FrameKernelIdealP
import proofs.«431374_j15917148799611_3_alg».proof.Proof.Spec
import proofs.«431374_j15917148799611_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

open scoped BigOperators

namespace Cert.KernelIdeal.Pay2a

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

/-! ## The similarities: the matmul at an index -/

/- The product's operand indices at output index i and contraction coordinate q: the left operand is read at (i 0, q), the right at
   (q, i 1). One coordinate per lemma. -/
theorem lhs_sims_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_sims_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_sims_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_sims_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The transposed centres at (d, o) are the centres at (o, d). -/
theorem transpose_centres_apply (y : FVec Ideal S1024x1024 .bf16) (d o : Fin 1024) :
    transpose S1024x1024 [1, 0] y transposes_S1024x1024_p1_0_S1024x1024 (ix2 d o) = y (ix2 o d) :=
  transpose_apply [1, 0] y transposes_S1024x1024_p1_0_S1024x1024 (ix2 d o) (ix2 o d) (fun b => match b with
    | ⟨0, _⟩ => rfl
    | ⟨1, _⟩ => rfl)

/-- The product into the zero accumulator at (r, o): the sum over d of the batch at (r, d) times the transposed centres at (d, o). -/
theorem sims_apply (x : FVec Ideal S1024x1024 .bf16) (y : FVec Ideal S1024x1024 .bf16) (r o : Fin 1024) :
    matmul dot_S1024x1024_S1024x1024_S1024x1024_1_0_0_1_n_n none x y (constant (F := Ideal) S1024x1024 .f32 0x00000000#32) (ix2 r o)
      = ∑ d : Fin 1024, x (ix2 r d) * y (ix2 d o) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r o) ((ValueIdx.contrEquiv1 dot_S1024x1024_S1024x1024_S1024x1024_1_0_0_1_n_n 1024 rfl rfl).symm k) = ix2 r k := funext fun a => Fin.ext (by
    match a with
    | ⟨0, _⟩ => exact lhs_sims_0 _ _
    | ⟨1, _⟩ => exact (lhs_sims_1 _ _).trans hk)
  have er : dot_S1024x1024_S1024x1024_S1024x1024_1_0_0_1_n_n.rhsIdx (ix2 r o) ((ValueIdx.contrEquiv1 dot_S1024x1024_S1024x1024_S1024x1024_1_0_0_1_n_n 1024 rfl rfl).symm k) = ix2 k o := funext fun a => Fin.ext (by
    match a with
    | ⟨0, _⟩ => exact (rhs_sims_0 _ _).trans hk
    | ⟨1, _⟩ => exact rhs_sims_1 _ _)
  rw [el, er]

/-! ## The masks -/

/-- A one-bit word xor true is true exactly when the word is not. -/
theorem xori_one_iff (b : BitVec 1) : IntOp.xori b 1#1 = 1#1 ↔ ¬ b = 1#1 := by
  rcases BitVec.eq_zero_or_eq_one b with h | h <;> subst h <;> decide

/-- A one-bit or is true exactly when one side is. -/
theorem ori_one_iff (a b : BitVec 1) : IntOp.ori a b = 1#1 ↔ a = 1#1 ∨ b = 1#1 := by
  rcases BitVec.eq_zero_or_eq_one a with h | h <;> rcases BitVec.eq_zero_or_eq_one b with h' | h' <;> subst h <;> subst h' <;> decide

/-- Two naturals below 2^32 have the same 32-bit word exactly when they are equal. -/
theorem ofNat32_inj {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · intro h; rw [h]

/-- The one-hot mask at (r, o): the label column repeated across the columns equals the column index exactly when the row's label is o. -/
theorem own_iff (t : Fin 8) (v6 : Vec Ideal S1024x1 .i32) (lb : Fin 8192 → Fin 1000)
    (h1 : ∀ r : Fin 1024, v6 (ix2 r (0 : Fin 1)) = BitVec.ofNat 32 (lb (Cert.Spec.row t r)).val) (r o : Fin 1024) :
    k2_pay2 (F := Ideal) v6 (ix2 r o) = 1#1 ↔ (lb (Cert.Spec.row t r)).val = o.val := by
  unfold k2_pay2
  show IntOp.cmpi .eq (broadcastTo S1024x1024 (shapeCast S1024x1 v6 shapeCasts_S1024x1_S1024x1) broadcasts_S1024x1_S1024x1024 (ix2 r o))
    (iota .tc S1024x1024 32 [1] iota_S1024x1024_d1_w32 (ix2 r o)) = 1#1 ↔ _
  rw [StableHlo.Predicate.cmpi_eq_iff, Cert.LibColumn.broadcastTo_a1_ab_apply, shapeCast_self, iota_single_apply, h1]
  show BitVec.ofNat 32 (lb (Cert.Spec.row t r)).val = BitVec.ofNat 32 o.val ↔ _
  have := (lb (Cert.Spec.row t r)).isLt
  have := o.isLt
  exact ofNat32_inj (by omega) (by omega)

/-- The padding mask at (r, o): the column index is not below 1000. -/
theorem pad_iff (r o : Fin 1024) :
    xori (cmpi .slt (iota .tc S1024x1024 32 [1] iota_S1024x1024_d1_w32) (broadcast S1024x1024 1000#32)) (constantI S1024x1024 1 1#1) (ix2 r o) = 1#1
      ↔ ¬ o.val < 1000 := by
  show IntOp.xori (IntOp.cmpi .slt (iota .tc S1024x1024 32 [1] iota_S1024x1024_d1_w32 (ix2 r o)) 1000#32) 1#1 = 1#1 ↔ _
  rw [xori_one_iff, iota_single_apply]
  show ¬ IntOp.cmpi .slt (BitVec.ofNat 32 o.val) 1000#32 = 1#1 ↔ _
  have ho := o.isLt
  have e : (BitVec.ofNat 32 o.val).toNat = o.val := by rw [BitVec.toNat_ofNat]; omega
  rw [StableHlo.Predicate.slt_iff_toNat (by rw [e]; omega) (by decide), e]
  rfl

/-! ## The row reductions -/

/-- The index that puts k on the dropped column axis of row r is (r, k). -/
theorem lift_row (r k : Fin 1024) : reduces_S1024x1024_S1024.lift (ix1 r) k = ix2 r k :=
  funext fun a => Fin.ext (by
    match a with
    | ⟨0, _⟩ => rfl
    | ⟨1, _⟩ => rfl)

/-- The sum over the columns, kept as a column: entry r is the sum of row r. -/
theorem row_sum (src : FVec Ideal S1024x1024 .f32) (r : Fin 1024) :
    shapeCast S1024x1 (multiReduction .add [1] S1024 src 0x00000000#32 reduces_S1024x1024_S1024 (.inl rfl) rfl) shapeCasts_S1024_S1024x1 (ix2 r (0 : Fin 1))
      = ∑ o : Fin 1024, src (ix2 r o) := by
  rw [Cert.LibColumn.shapeCast_a_a1_apply]
  refine (Ideal.multiReduction_add_single src 0x00000000#32 reduces_S1024x1024_S1024 (.inl rfl) rfl (ix1 r)).trans ?_
  exact Finset.sum_congr rfl fun k _ => congrArg src (lift_row r k)

/-- The f32 word of -infinity is the bottom of the extended reals. -/
theorem ofBits_neg_inf : Ideal.ofBits .f32 0xFF800000#32 = ⊥ := by simp [Ideal.ofBits, Ideal.ieee]

/-- The maximum over the columns from -infinity, kept as a column: entry r is the maximum of row r. -/
theorem row_max (src : FVec Ideal S1024x1024 .f32) (r : Fin 1024) :
    shapeCast S1024x1 (multiReduction .maximumf [1] S1024 src 0xFF800000#32 reduces_S1024x1024_S1024 (.inl rfl) rfl) shapeCasts_S1024_S1024x1 (ix2 r (0 : Fin 1))
      = Finset.univ.fold max ⊥ (fun o : Fin 1024 => src (ix2 r o)) := by
  rw [Cert.LibColumn.shapeCast_a_a1_apply]
  refine (Ideal.multiReduction_maximumf_single src 0xFF800000#32 reduces_S1024x1024_S1024 (.inl rfl) rfl (ix1 r)).trans ?_
  have e : (src ∘ reduces_S1024x1024_S1024.lift (ix1 r)) = fun o : Fin 1024 => src (ix2 r o) :=
    funext fun k => congrArg src (lift_row r k)
  have eb : FloatOps.ofBits (F := Ideal) .f32 0xFF800000#32 = ⊥ := ofBits_neg_inf
  rw [eb]
  exact congrArg (Finset.univ.fold max ⊥) e

/-- The mask fill's name denotes -infinity. -/
theorem neg_big : Named.named (F := Ideal) Cert.KernelIdeal.κ "neg_big" (φ := .f32) 0xF149F2CA#32 = ⊥ :=
  IdealRules.named_const.ideal_named_scalar _ _ _ _ rfl

/-! ## The term after the similarities and the one-hot mask -/

/-- Over any similarities and any one-hot mask: entry r is (1 - the sum of the row's masked similarities) + 1 - (1 - the maximum of the
    row's similarities with -infinity on the mask and on the padding). -/
theorem tail_apply (sims : FVec Ideal S1024x1024 .f32) (own : IVec S1024x1024 1) (r : Fin 1024) :
    subf (addf (subf (broadcast S1024x1 (Scalar.ofBits (F := Ideal) .f32 0x3F800000#32))
          (shapeCast S1024x1 (multiReduction .add [1] S1024 (select own sims (broadcast S1024x1024 (Scalar.ofBits (F := Ideal) .f32 0x00000000#32))) 0x00000000#32 reduces_S1024x1024_S1024 (.inl rfl) rfl) shapeCasts_S1024_S1024x1))
        (broadcast S1024x1 (Scalar.ofBits (F := Ideal) .f32 0x3F800000#32)))
      (subf (broadcast S1024x1 (Scalar.ofBits (F := Ideal) .f32 0x3F800000#32))
        (shapeCast S1024x1 (multiReduction .maximumf [1] S1024 (select (ori own (xori (cmpi .slt (iota .tc S1024x1024 32 [1] iota_S1024x1024_d1_w32) (broadcast S1024x1024 1000#32)) (constantI S1024x1024 1 1#1))) (broadcast S1024x1024 (Named.named (F := Ideal) κ "neg_big" 0xF149F2CA#32)) sims) 0xFF800000#32 reduces_S1024x1024_S1024 (.inl rfl) rfl) shapeCasts_S1024_S1024x1))
      (ix2 r (0 : Fin 1))
    = (Cert.Spec.one - ∑ o : Fin 1024, (if own (ix2 r o) = 1#1 then sims (ix2 r o) else 0)) + Cert.Spec.one
      - (Cert.Spec.one - Finset.univ.fold max ⊥ (fun o : Fin 1024 => if own (ix2 r o) = 1#1 ∨ ¬ o.val < 1000 then ⊥ else sims (ix2 r o))) := by
  rw [subf_apply, addf_apply, subf_apply, subf_apply, row_sum, row_max, broadcast_apply]
  have eA : (∑ o : Fin 1024, select own sims (broadcast S1024x1024 (Scalar.ofBits (F := Ideal) .f32 0x00000000#32)) (ix2 r o))
      = ∑ o : Fin 1024, (if own (ix2 r o) = 1#1 then sims (ix2 r o) else 0) :=
    Finset.sum_congr rfl fun o _ => by
      rw [select_apply, broadcast_apply]
      show (if own (ix2 r o) = 1#1 then sims (ix2 r o) else Ideal.ofBits .f32 0x00000000#32) = _
      rw [Ideal.ofBits_zero_f32]
  have eB : (fun o : Fin 1024 => select (ori own (xori (cmpi .slt (iota .tc S1024x1024 32 [1] iota_S1024x1024_d1_w32) (broadcast S1024x1024 1000#32)) (constantI S1024x1024 1 1#1))) (broadcast S1024x1024 (Named.named (F := Ideal) κ "neg_big" 0xF149F2CA#32)) sims (ix2 r o))
      = fun o : Fin 1024 => if own (ix2 r o) = 1#1 ∨ ¬ o.val < 1000 then ⊥ else sims (ix2 r o) :=
    funext fun o => by
      rw [select_apply, broadcast_apply, neg_big]
      unfold Scalar.select
      exact if_congr ((ori_one_iff _ _).trans (or_congr Iff.rfl (pad_iff r o))) rfl rfl
  rw [eA, eB]
  rfl

/-- Entry `r` is `kPos + 1 - kNeg` of row `row t r`. -/
theorem pay4_apply (t : Fin 8) (v0 : Vec Ideal S1024x1024 .f32) (v2 : Vec Ideal S1024x1024 .bf16) (v6 : Vec Ideal S1024x1 .i32)
    (X : Fin 8192 → Fin 1024 → EReal) (lb : Fin 8192 → Fin 1000) (P : Fin 1024 → Fin 1024 → EReal)
    (h0 : ∀ r d : Fin 1024, v0 (ix2 r d) = X (Cert.Spec.row t r) d)
    (h2 : ∀ o d : Fin 1024, v2 (ix2 o d) = Cert.Spec.kNc P o d)
    (h1 : ∀ r : Fin 1024, v6 (ix2 r (0 : Fin 1)) = BitVec.ofNat 32 (lb (Cert.Spec.row t r)).val) (r : Fin 1024) :
    k2_pay4 (F := Ideal) v0 v2 v6 (ix2 r (0 : Fin 1))
      = Cert.Spec.kPos X lb P (Cert.Spec.row t r) + Cert.Spec.one - Cert.Spec.kNeg X lb P (Cert.Spec.row t r) := by
  have hs : ∀ o : Fin 1024,
      matmul dot_S1024x1024_S1024x1024_S1024x1024_1_0_0_1_n_n none (truncf .bf16 v0 bitsLt_bf16_f32)
        (transpose S1024x1024 [1, 0] (shapeCast S1024x1024 v2 shapeCasts_S1024x1024_S1024x1024) transposes_S1024x1024_p1_0_S1024x1024)
        (constant (F := Ideal) S1024x1024 .f32 0x00000000#32) (ix2 r o)
      = Cert.Spec.kSims X P (Cert.Spec.row t r) o := fun o => by
    rw [sims_apply]
    unfold Cert.Spec.kSims
    refine Finset.sum_congr rfl fun d _ => ?_
    rw [truncf_apply, h0, transpose_centres_apply, shapeCast_self, h2]
  refine (tail_apply _ (k2_pay2 (F := Ideal) v6) r).trans ?_
  unfold Cert.Spec.kPos Cert.Spec.kNeg
  refine congrArg₂ (fun a b : EReal => (Cert.Spec.one - a) + Cert.Spec.one - (Cert.Spec.one - b)) ?_ ?_
  · exact Finset.sum_congr rfl fun o _ => if_congr (own_iff t v6 lb h1 r o) (hs o) rfl
  · exact congrArg (fun g : Fin 1024 → EReal => Finset.univ.fold max ⊥ g)
      (funext fun o => if_congr (or_congr (own_iff t v6 lb h1 r o) Iff.rfl) rfl (hs o))

end Cert.KernelIdeal.Pay2a

end
-- ==== Proof.KPay2.lean ====
/-
  Region 2's stored block at an index. The second per-row term reads the table at the row's class by a sum against the label's one-hot row; the stored block holds, in every lane, the tile's sum of the two hinge terms over its 1024 rows.

  The one-hot row: the mask at (r, c) compares the word of row r's label with the word of the column index c; both
  naturals are below 2^32, so the words agree exactly when the label is c. The second term at r is then the sum over c
  of the table at c where c is the label and zero elsewhere, which is `kC2c`. The stored block: per row, the first
  term clipped below at zero plus the margin less the second term clipped below at zero, which is `kLoss`; summed over
  the 1024 rows of the column it is `kTile`, and the unit-axis casts and the lane broadcast carry that one number to
  every lane.
-/
import proofs.«431374_j15917148799611_3_alg».proof.Proof.FrameKernelIdealP
import proofs.«431374_j15917148799611_3_alg».proof.Proof.Spec
import proofs.«431374_j15917148799611_3_alg».proof.Proof.LibColumn
import proofs.«431374_j15917148799611_3_alg».proof.Proof.KPay2a
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pay2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

open Cert.KernelIdeal.Pay2a

/-! ## The one-hot mask -/

/-- Two naturals below 2^32 have the same 32-bit word exactly when they are equal: a word's value is the natural
    modulo 2^32, and below 2^32 that is the natural itself. -/
theorem ofNat32_eq_iff {a b : ℕ} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    omega
  · intro h; rw [h]

/-- A choice on the mask at (r, c) takes its first value exactly when row r's label is column c: the mask compares
    the label column, repeated across the columns, with the column index; at (r, c) these are the words of the label
    and of c, both below 2^32, so the words are equal exactly when the naturals are. -/
theorem pay2_select (t : Fin 8) (v6 : Vec Ideal S1024x1 .i32) (lb : Fin 8192 → Fin 1000)
    (h1 : ∀ r : Fin 1024, v6 (ix2 r (0 : Fin 1)) = BitVec.ofNat 32 (lb (Cert.Spec.row t r)).val)
    {α : Type} (r c : Fin 1024) (a b : α) :
    Scalar.select (k2_pay2 (F := Ideal) v6 (ix2 r c)) a b
      = if (lb (Cert.Spec.row t r)).val = c.val then a else b := by
  unfold k2_pay2
  show Scalar.select (IntOp.cmpi .eq (broadcastTo S1024x1024 (shapeCast S1024x1 v6 shapeCasts_S1024x1_S1024x1) broadcasts_S1024x1_S1024x1024 (ix2 r c))
      (iota .tc S1024x1024 32 [1] iota_S1024x1024_d1_w32 (ix2 r c))) a b = _
  rw [Cert.LibColumn.broadcastTo_a1_ab_apply, shapeCast_self, h1, iota_single_apply]
  show Scalar.select (BitVec.ofBool (BitVec.ofNat 32 (lb (Cert.Spec.row t r)).val == BitVec.ofNat 32 c.val)) a b = _
  have hl : (lb (Cert.Spec.row t r)).val < 4294967296 := by have := (lb (Cert.Spec.row t r)).isLt; omega
  have hc : c.val < 4294967296 := by have := c.isLt; omega
  unfold Scalar.select
  by_cases h : (lb (Cert.Spec.row t r)).val = c.val
  · rw [if_pos h, h, beq_self_eq_true]; exact if_pos rfl
  · rw [if_neg h, beq_eq_false_iff_ne.mpr (fun e => h ((ofNat32_eq_iff hl hc).mp e))]; exact if_neg (by decide)

/-! ## The second per-row term -/

/-- Row index r with column k put back on the summed axis is the index (r, k). -/
theorem lift_row (h : S1024x1024.Reduces [1] S1024) (r : Fin 1024) (k : Fin (S1024x1024.size 1)) :
    h.lift (ix1 r) k = ix2 r (⟨k.val, k.isLt⟩ : Fin 1024) := by
  funext c; apply Fin.ext
  fin_cases c <;> rfl

/-- The masked table at (r, c): the table row repeated down the rows reads the table at c; the mask keeps it where c
    is row r's label and puts zero elsewhere. -/
theorem pay3_term (t : Fin 8) (v6 : Vec Ideal S1024x1 .i32) (v27 : Vec Ideal S1x1024 .f32)
    (lb : Fin 8192 → Fin 1000) (P : Fin 1024 → Fin 1024 → EReal)
    (h1 : ∀ r : Fin 1024, v6 (ix2 r (0 : Fin 1)) = BitVec.ofNat 32 (lb (Cert.Spec.row t r)).val)
    (h3 : ∀ l : Fin 1024, v27 (ix2 (0 : Fin 1) l) = Cert.Spec.kN2 P l) (r c : Fin 1024) :
    select (k2_pay2 (F := Ideal) v6)
        (broadcastTo S1024x1024 (shapeCast S1x1024 (shapeCast S1x1024 v27 shapeCasts_S1x1024_S1x1024) shapeCasts_S1x1024_S1x1024)
          broadcasts_S1x1024_S1024x1024)
        (broadcast S1024x1024 (Scalar.ofBits (F := Ideal) .f32 0x00000000#32)) (ix2 r c)
      = if (lb (Cert.Spec.row t r)).val = c.val then Cert.Spec.kN2 P c else 0 := by
  rw [select_apply, pay2_select t v6 lb h1, broadcastTo_1b_ab_apply, shapeCast_self, shapeCast_self, h3, broadcast_apply]
  show (if _ then _ else Ideal.ofBits .f32 0x00000000#32) = _
  rw [Ideal.ofBits_zero_f32]

/-- Entry `r` of the second term is the table entry of row `row t r`'s class. -/
theorem pay3_apply (t : Fin 8) (v6 : Vec Ideal S1024x1 .i32) (v27 : Vec Ideal S1x1024 .f32)
    (lb : Fin 8192 → Fin 1000) (P : Fin 1024 → Fin 1024 → EReal)
    (h1 : ∀ r : Fin 1024, v6 (ix2 r (0 : Fin 1)) = BitVec.ofNat 32 (lb (Cert.Spec.row t r)).val)
    (h3 : ∀ l : Fin 1024, v27 (ix2 (0 : Fin 1) l) = Cert.Spec.kN2 P l) (r : Fin 1024) :
    k2_pay3 (F := Ideal) v6 v27 (ix2 r (0 : Fin 1)) = Cert.Spec.kC2c lb P (Cert.Spec.row t r) := by
  -- The column cast reads the length-1024 vector at r; that vector is the sum over the columns of the masked table's
  -- row r, and the masked table at (r, c) is the term of `kC2c` at c.
  unfold k2_pay3
  refine (Cert.LibColumn.shapeCast_a_a1_apply _ _ r (0 : Fin 1)).trans ?_
  refine (Ideal.multiReduction_add_single _ _ _ _ _ (ix1 r)).trans ?_
  refine (Finset.sum_congr rfl fun k _ =>
    (congrArg _ (lift_row _ r k)).trans (pay3_term t v6 v27 lb P h1 h3 r ⟨k.val, k.isLt⟩)).trans ?_
  rfl

/-! ## The stored block -/

/-- The one index of the length-1 result with row k put back on the summed axis of the column is the index (k, 0). -/
theorem lift_col (h : S1024x1.Reduces [0] S1) (k : Fin (S1024x1.size 0)) :
    h.lift (ix1 (0 : Fin 1)) k = ix2 (⟨k.val, k.isLt⟩ : Fin 1024) (0 : Fin 1) := by
  funext c; apply Fin.ext
  fin_cases c <;> rfl

/-- Every lane of the block made from the two per-row terms is the sum over the 1024 rows of the first term clipped
    below at zero plus the margin less the second term clipped below at zero: the lane broadcast reads the one entry
    of the [1,1,1] value, the unit-axis casts read the one entry of the length-1 sum, and that sum runs over the rows
    of the column. The zero word is the real zero. -/
theorem pay1_apply (v34 v37 : FVec Ideal S1024x1 .f32) (y : S1x1x128.Idx) :
    k2_pay1 (F := Ideal) v34 v37 (Scalar.ofBits .f32 0x00000000#32) y
      = ∑ r : Fin 1024, (max (v37 (ix2 r (0 : Fin 1))) 0 + max (Cert.Spec.margin - v34 (ix2 r (0 : Fin 1))) 0) := by
  unfold k2_pay1
  refine (broadcastTo_apply _ _ y (ix3 (0 : Fin 1) (0 : Fin 1) (0 : Fin 1)) fun a => ?_).trans ?_
  · match a with
    | ⟨0, _⟩ => rfl
    | ⟨1, _⟩ => rfl
    | ⟨2, _⟩ => rfl
  rw [shapeCast_self, shapeCast_ab_1ab_apply, shapeCast_a_1a_apply]
  refine (Ideal.multiReduction_add_single _ _ _ _ _ (ix1 (0 : Fin 1))).trans ?_
  refine (Finset.sum_congr rfl fun k _ => congrArg _ (lift_col _ k)).trans ?_
  show (∑ k : Fin 1024, (max (v37 (ix2 k (0 : Fin 1))) (Ideal.ofBits .f32 0x00000000#32)
      + max (Ideal.ofBits .f32 0x3FB33333#32 - v34 (ix2 k (0 : Fin 1))) (Ideal.ofBits .f32 0x00000000#32))) = _
  rw [Ideal.ofBits_zero_f32]

/-- The rank-2 offsets written as two zeros are the zero offsets. -/
theorem hz2 : (![0, 0] : Fin 2 → Nat) = fun _ => 0 := funext fun a => by fin_cases a <;> rfl
/-- The rank-3 offsets written as three zeros are the zero offsets. -/
theorem hz3 : (![0, 0, 0] : Fin 3 → Nat) = fun _ => 0 := funext fun a => by fin_cases a <;> rfl

/-- Every entry of the stored block is the tile's summed loss. -/
theorem out2_4_apply (t : Fin 8) (x0 : Vec Ideal S1024x1024 .f32) (x1 : Vec Ideal S1024x1 .i32) (x2 : Vec Ideal S1024x1024 .bf16)
    (x3 : Vec Ideal S1x1024 .f32)
    (X : Fin 8192 → Fin 1024 → EReal) (lb : Fin 8192 → Fin 1000) (P : Fin 1024 → Fin 1024 → EReal)
    (h0 : ∀ r d : Fin 1024, x0 (ix2 r d) = X (Cert.Spec.row t r) d)
    (h1 : ∀ r : Fin 1024, x1 (ix2 r (0 : Fin 1)) = BitVec.ofNat 32 (lb (Cert.Spec.row t r)).val)
    (h2 : ∀ o d : Fin 1024, x2 (ix2 o d) = Cert.Spec.kNc P o d)
    (h3 : ∀ l : Fin 1024, x3 (ix2 (0 : Fin 1) l) = Cert.Spec.kN2 P l) (y : S1x1x128.Idx) :
    out2_4 (F := Ideal) x0 x1 x2 x3 y = Cert.Spec.kTile X lb P t := by
  -- The one store through the whole rectangle leaves its payload, and each load through a whole rectangle reads its
  -- block; the payload's lane is the sum over the rows of the two clipped terms, whose row r is `kLoss` of `row t r`
  -- by the two per-row lemmas.
  unfold out2_4
  rw [View.canon_unit_zero hz3, View.ld_unit_zero hz2, View.ld_unit_zero hz2, View.ld_unit_zero hz2, View.ld_unit_zero hz2]
  rw [pay1_apply]
  unfold Cert.Spec.kTile Cert.Spec.kLoss
  refine Finset.sum_congr rfl fun r _ => ?_
  rw [pay3_apply t x1 x3 lb P h1 h3 r, pay4_apply t x0 x2 x1 X lb P h0 h2 h1 r]

end Cert.KernelIdeal.Pay2

end
-- ==== Proof.KReg2.lean ====
/-
  Region 2 (the loss kernel, eight tiles of 1024 rows): from the batch `X`, the labels, the normalised centres and the table, every lane of tile `t`'s output block ends holding the tile's summed loss `Spec.kTile X lb P t`.

  Grid point `t` reads rows `1024 t … 1024 t + 1023` of the batch and of the labels (row `r` of the block is row `Spec.row t r` of the array), the
  normalised centres and the table whole, and writes row `t` of the [8,1,128] output. What it writes is the constant `Spec.kTile X lb P t` in every
  lane, so each write-back is its block of ONE array, `y ↦ Spec.kTile X lb P (y 0)`; the eight rows cover the output, so the output ends holding it.
-/
import proofs.«431374_j15917148799611_3_alg».proof.Proof.FrameKernelIdealP
import proofs.«431374_j15917148799611_3_alg».proof.Proof.Spec
import proofs.«431374_j15917148799611_3_alg».proof.Proof.LibColumn
import proofs.«431374_j15917148799611_3_alg».proof.Proof.KPay2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

/- the TensorCore's buffer contents when the region is entered -/
variable (V : (c : Dev nD) → (b : Ref sig .tc) → Buf (Elt Ideal) ((c : Thread nD τ).loc b))

/-- Grid point `t` as a tile number (the grid has eight points). -/
def tileOf (t : Fin cfg2.N) : Fin 8 := ⟨t.val, Nat.lt_of_lt_of_eq t.isLt N_2⟩

/-- The block indices over the grid: the batch, the labels and the output move with the point along their first axis (block `t`),
    the normalised centres and the table stay at block 0; every other axis is at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- The batch's block at point `t`. -/
abbrev xblk (c : Dev nD) (t : Fin cfg2.N) : Vec Ideal S1024x1024 .f32 := iblk2 V c 0 t
/-- The labels' block at point `t`. -/
abbrev lblk (c : Dev nD) (t : Fin cfg2.N) : Vec Ideal S1024x1 .i32 := iblk2 V c 1 t
/-- The normalised centres' block at point `t` (the whole array). -/
abbrev nblk (c : Dev nD) (t : Fin cfg2.N) : Vec Ideal S1024x1024 .bf16 := iblk2 V c 2 t
/-- The table's block at point `t` (the whole array). -/
abbrev tblk (c : Dev nD) (t : Fin cfg2.N) : Vec Ideal S1x1024 .f32 := iblk2 V c 3 t

/-- Row `r` of the batch's block at point `t` is row `1024 t + r` of the batch: a block's coordinate is the block index times the block's
    extent plus the coordinate inside the block. -/
theorem xblk_apply (c : Dev nD) (t : Fin cfg2.N) (r d : Fin 1024) :
    xblk V c t (ix2 r d) = (V c main_arg0 : S8192x1024.Idx → EReal) (ix2 (Cert.Spec.row (tileOf t) r) d) := by
  obtain ⟨e0, e1, -⟩ := idx_facts t
  unfold xblk iblk2
  rw [View.read_apply]
  show (V c main_arg0 : S8192x1024.Idx → EReal) _ = (V c main_arg0 : S8192x1024.Idx → EReal) _
  congr 1
  funext a
  apply Fin.ext
  match a with
  | ⟨0, _⟩ => show win2_0.index t (0 : Fin 2) * 1024 + 1 * r.val = t.val * 1024 + r.val; rw [e0]; omega
  | ⟨1, _⟩ => show win2_0.index t (1 : Fin 2) * 1024 + 1 * d.val = d.val; rw [e1]; omega

/-- Row `r` of the labels' block at point `t` is row `1024 t + r` of the labels. -/
theorem lblk_apply (c : Dev nD) (t : Fin cfg2.N) (r : Fin 1024) :
    lblk V c t (ix2 r (0 : Fin 1)) = (V c main_v1 : S8192x1.Idx → BitVec 32) (ix2 (Cert.Spec.row (tileOf t) r) (0 : Fin 1)) := by
  obtain ⟨-, -, e0, e1, -⟩ := idx_facts t
  unfold lblk iblk2
  rw [View.read_apply]
  show (V c main_v1 : S8192x1.Idx → BitVec 32) _ = (V c main_v1 : S8192x1.Idx → BitVec 32) _
  congr 1
  funext a
  apply Fin.ext
  match a with
  | ⟨0, _⟩ => show win2_1.index t (0 : Fin 2) * 1024 + 1 * r.val = t.val * 1024 + r.val; rw [e0]; omega
  | ⟨1, _⟩ => show win2_1.index t (1 : Fin 2) * 1 + 1 * 0 = 0; rw [e1]

/-- The normalised centres' block is the whole array at every point (block 0 of extent the array's). -/
theorem nblk_apply (c : Dev nD) (t : Fin cfg2.N) (o d : Fin 1024) :
    nblk V c t (ix2 o d) = (V c main_v2_1 : S1024x1024.Idx → EReal) (ix2 o d) := by
  obtain ⟨-, -, -, -, e0, e1, -⟩ := idx_facts t
  unfold nblk iblk2
  rw [View.read_apply]
  show (V c main_v2_1 : S1024x1024.Idx → EReal) _ = (V c main_v2_1 : S1024x1024.Idx → EReal) _
  congr 1
  funext a
  apply Fin.ext
  match a with
  | ⟨0, _⟩ => show win2_2.index t (0 : Fin 2) * 1024 + 1 * o.val = o.val; rw [e0]; omega
  | ⟨1, _⟩ => show win2_2.index t (1 : Fin 2) * 1024 + 1 * d.val = d.val; rw [e1]; omega

/-- The table's block is the whole array at every point. -/
theorem tblk_apply (c : Dev nD) (t : Fin cfg2.N) (l : Fin 1024) :
    tblk V c t (ix2 (0 : Fin 1) l) = (V c main_v3 : S1x1024.Idx → EReal) (ix2 (0 : Fin 1) l) := by
  obtain ⟨-, -, -, -, -, -, e0, e1, -⟩ := idx_facts t
  unfold tblk iblk2
  rw [View.read_apply]
  show (V c main_v3 : S1x1024.Idx → EReal) _ = (V c main_v3 : S1x1024.Idx → EReal) _
  congr 1
  funext a
  apply Fin.ext
  match a with
  | ⟨0, _⟩ => show win2_3.index t (0 : Fin 2) * 1 + 1 * 0 = 0; rw [e0]
  | ⟨1, _⟩ => show win2_3.index t (1 : Fin 2) * 1024 + 1 * l.val = l.val; rw [e1]; omega

/-- The array region 2 writes: every lane of row `y 0` holds tile `y 0`'s sum. -/
abbrev tileSums (X : Fin 8192 → Fin 1024 → EReal) (lb : Fin 8192 → Fin 1000) (P : Fin 1024 → Fin 1024 → EReal) :
    S8x1x128.Idx → EReal := fun y => Cert.Spec.kTile X lb P (y 0)

/-- What point `t` writes back is its block of `tileSums`: the stored block is the constant `Spec.kTile X lb P t` (the payload, at the
    blocks read above), and the block's row in the array is row `t` (block index `t`, extent 1). -/
theorem flushed_eq (c : Dev nD) (X : Fin 8192 → Fin 1024 → EReal) (lb : Fin 8192 → Fin 1000) (P : Fin 1024 → Fin 1024 → EReal)
    (hX : ∀ (i : Fin 8192) (d : Fin 1024), (V c main_arg0 : S8192x1024.Idx → EReal) (ix2 i d) = X i d)
    (hL : ∀ i : Fin 8192, (V c main_v1 : S8192x1.Idx → BitVec 32) (ix2 i (0 : Fin 1)) = BitVec.ofNat 32 (lb i).val)
    (hN : ∀ o d : Fin 1024, (V c main_v2_1 : S1024x1024.Idx → EReal) (ix2 o d) = Cert.Spec.kNc P o d)
    (hT : ∀ l : Fin 1024, (V c main_v3 : S1x1024.Idx → EReal) (ix2 (0 : Fin 1) l) = Cert.Spec.kN2 P l)
    (t : Fin cfg2.N) :
    (dat2 V c).flushed 4 t = ((cfg2.win 4).blk t).view.read (Elt Ideal) (tileSums X lb P) := by
  show (cfg2.win 4).cut (grid2.coords t) ((dat2 V c).after 4 t) = _
  rw [after2_4]
  funext y
  rw [View.read_apply]
  refine (Pay2.out2_4_apply (tileOf t) (xblk V c t) (lblk V c t) (nblk V c t) (tblk V c t) X lb P ?_ ?_ ?_ ?_ _).trans ?_
  · intro r d; rw [xblk_apply, hX]
  · intro r; rw [lblk_apply, hL]
  · intro o d; rw [nblk_apply, hN]
  · intro l; rw [tblk_apply, hT]
  · obtain ⟨-, -, -, -, -, -, -, -, e0, -⟩ := idx_facts t
    show Cert.Spec.kTile X lb P (tileOf t) = Cert.Spec.kTile X lb P ((((cfg2.win 4).blk t).view.emb y) 0)
    congr 1
    apply Fin.ext
    show t.val = win2_4.index t (0 : Fin 3) * 1 + 1 * (y 0).val
    have hy : (y 0).val < 1 := (y 0).isLt
    rw [e0]; omega

/-- An index of the output array lies in point `t`'s block iff each coordinate lies in the block's range on its axis. -/
theorem mem_blk (t : Fin cfg2.N) (i : S8x1x128.Idx) :
    i ∈ ((cfg2.win 4).blk t).view.set ↔ ∀ a : Fin 3, win2_4.index t a * S1x1x128.size a ≤ (i a).val ∧ (i a).val < win2_4.index t a * S1x1x128.size a + S1x1x128.size a := by
  show i ∈ ((View.whole main_v4).slice (win2_4.rect t)).set ↔ _
  rw [View.set_slice_whole, Rect.mem_set_unit]
  exact Iff.rfl

/-- Row `i 0` of the output array is point `i 0`'s block. -/
theorem cover (i : S8x1x128.Idx) : ∃ t : Fin cfg2.N, (cfg2.win 4).flush t = true ∧ i ∈ ((cfg2.win 4).blk t).view.set := by
  have h0 : (i 0).val < 8 := (i 0).isLt
  have h1 : (i 1).val < 1 := (i 1).isLt
  have h2 : (i 2).val < 128 := (i 2).isLt
  obtain ⟨p, hp⟩ : ∃ p : Fin cfg2.N, p.val = (i 0).val := ⟨⟨(i 0).val, Nat.lt_of_lt_of_eq h0 N_2.symm⟩, rfl⟩
  refine ⟨p, flush2_4 p, ?_⟩
  rw [mem_blk]
  obtain ⟨-, -, -, -, -, -, -, -, e0, e1, e2⟩ := idx_facts p
  intro a
  match a with
  | ⟨0, _⟩ => show win2_4.index p (0 : Fin 3) * 1 ≤ (i 0).val ∧ (i 0).val < win2_4.index p (0 : Fin 3) * 1 + 1; rw [e0, hp]; omega
  | ⟨1, _⟩ => show win2_4.index p (1 : Fin 3) * 1 ≤ (i 1).val ∧ (i 1).val < win2_4.index p (1 : Fin 3) * 1 + 1; rw [e1]; omega
  | ⟨2, _⟩ => show win2_4.index p (2 : Fin 3) * 128 ≤ (i 2).val ∧ (i 2).val < win2_4.index p (2 : Fin 3) * 128 + 128; rw [e2]; omega

/-- Every lane of tile `t`'s block is the tile's sum. -/
theorem tiles (c : Dev nD) (X : Fin 8192 → Fin 1024 → EReal) (lb : Fin 8192 → Fin 1000) (P : Fin 1024 → Fin 1024 → EReal)
    (hX : ∀ (i : Fin 8192) (d : Fin 1024), (V c main_arg0 : S8192x1024.Idx → EReal) (ix2 i d) = X i d)
    (hL : ∀ i : Fin 8192, (V c main_v1 : S8192x1.Idx → BitVec 32) (ix2 i (0 : Fin 1)) = BitVec.ofNat 32 (lb i).val)
    (hN : ∀ o d : Fin 1024, (V c main_v2_1 : S1024x1024.Idx → EReal) (ix2 o d) = Cert.Spec.kNc P o d)
    (hT : ∀ l : Fin 1024, (V c main_v3 : S1x1024.Idx → EReal) (ix2 (0 : Fin 1) l) = Cert.Spec.kN2 P l)
    (t : Fin 8) (lane : Fin 128) :
    ((dat2 V c).arrAt 4 cfg2.N : S8x1x128.Idx → EReal) (ix3 t (0 : Fin 1) lane) = Cert.Spec.kTile X lb P t := by
  have h := (dat2 V c).arrAt_eq_of_cover 4 (tileSums X lb P) (fun t _ => flushed_eq V c X lb P hX hL hN hT t) cover
  exact congrFun h (ix3 t (0 : Fin 1) lane)

end Cert.KernelIdeal.Reg2

end
-- ==== Proof.KValue.lean ====
/-
  The kernel's result as one function of its arguments.

  The buffer contents at each boundary of the run are known by name: at region 0's entry the padded centres, the label
  column and the batch; region 0 leaves the padded centres and their normalised form; region 1 leaves the per-class
  table; region 2 leaves the eight tile sums; the host sums them and divides. Arrays a region does not write pass
  through it unchanged, and a region's input arrays end as they were found. So the result is `Spec.kResult` of the
  batch, the rows' classes and the centres.
-/
import proofs.«431374_j15917148799611_3_alg».proof.Proof.FrameKernelIdealP
import proofs.«431374_j15917148799611_3_alg».proof.Proof.Spec
import proofs.«431374_j15917148799611_3_alg».proof.Proof.KHost
import proofs.«431374_j15917148799611_3_alg».proof.Proof.KReg0
import proofs.«431374_j15917148799611_3_alg».proof.Proof.KReg1
import proofs.«431374_j15917148799611_3_alg».proof.Proof.KReg2

set_option maxRecDepth 16384

noncomputable section

open scoped BigOperators

namespace Cert.KernelIdeal.Value

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg)

/-- The batch, the centres and the padded centres as coordinate functions of the launch memory. -/
abbrev Xm (c : Dev nD) : Fin 8192 → Fin 1024 → EReal :=
  fun i d => (m ((c : Thread nD τ).loc main_arg0) : S8192x1024.Idx → EReal) (ix2 i d)
abbrev Cm (c : Dev nD) : Fin 1000 → Fin 1024 → EReal :=
  fun o d => (m ((c : Thread nD τ).loc main_arg2) : S1000x1024.Idx → EReal) (ix2 o d)

/-- The result buffer after the run is `Spec.kResult` of the arguments, when every label is the word of a class. -/
theorem result (c : Dev nD) (lb : Fin 8192 → Fin 1000)
    (hlb : ∀ i : Fin 8192, (m ((c : Thread nD τ).loc main_arg1) : S8192.Idx → BitVec 32) (ix1 i) = BitVec.ofNat 32 (lb i).val) :
    (W7 m ρ c (Proc.devRef .tc main_v8) : S_.Idx → EReal) = fun _ => Cert.Spec.kResult (Xm m c) lb (Cm m c) := by
  -- region 0's entry
  have hP3 : ∀ o d : Fin 1024, (V3 m ρ c main_v0 : S1024x1024.Idx → EReal) (ix2 o d) = Cert.Spec.padC (Cm m c) o d :=
    fun o d => Cert.KernelIdeal.Host.W3_v0 m ρ c o d
  -- region 0's two outputs, as region 1 finds them
  have hA4 : ∀ o d : Fin 1024, (V4 m ρ c main_v2_0 : S1024x1024.Idx → EReal) (ix2 o d) = Cert.Spec.padC (Cm m c) o d :=
    fun o d => (congrFun (W4_arr m ρ c 1) (ix2 o d)).trans (Cert.KernelIdeal.Reg0.centres (V3 m ρ) c _ hP3 o d)
  have hB4 : ∀ o d : Fin 1024, (V4 m ρ c main_v2_1 : S1024x1024.Idx → EReal) (ix2 o d)
      = Cert.Spec.kNc (Cert.Spec.padC (Cm m c)) o d :=
    fun o d => (congrFun (W4_arr m ρ c 2) (ix2 o d)).trans (Cert.KernelIdeal.Reg0.normed (V3 m ρ) c _ hP3 o d)
  -- region 1's output, and what passes through it, as region 2 finds them
  have hT5 : ∀ l : Fin 1024, (V5 m ρ c main_v3 : S1x1024.Idx → EReal) (ix2 (0 : Fin 1) l)
      = Cert.Spec.kN2 (Cert.Spec.padC (Cm m c)) l :=
    fun l => (congrFun (W5_arr m ρ c 2) (ix2 (0 : Fin 1) l)).trans (Cert.KernelIdeal.Reg1.table (V4 m ρ) c _ hA4 hB4 l)
  have hN5 : ∀ o d : Fin 1024, (V5 m ρ c main_v2_1 : S1024x1024.Idx → EReal) (ix2 o d)
      = Cert.Spec.kNc (Cert.Spec.padC (Cm m c)) o d :=
    fun o d => (congrFun ((W5_arr m ρ c 1).trans (((dat1 (V4 m ρ) c).arrAt_in 1 rfl _).trans (A_eq1 (V4 m ρ) c 1))) (ix2 o d)).trans
      (hB4 o d)
  have hX5 : ∀ (i : Fin 8192) (d : Fin 1024), (V5 m ρ c main_arg0 : S8192x1024.Idx → EReal) (ix2 i d) = Xm m c i d :=
    fun i d => congrFun (((W5_of_ne m ρ c main_arg0 (by decide)).trans (W4_of_ne m ρ c main_arg0 (by decide))).trans
      (Cert.KernelIdeal.Host.W3_arg0 m ρ c)) (ix2 i d)
  have hL5 : ∀ i : Fin 8192, (V5 m ρ c main_v1 : S8192x1.Idx → BitVec 32) (ix2 i (0 : Fin 1)) = BitVec.ofNat 32 (lb i).val :=
    fun i => ((congrFun ((W5_of_ne m ρ c main_v1 (by decide)).trans (W4_of_ne m ρ c main_v1 (by decide))) (ix2 i (0 : Fin 1))).trans
      (Cert.KernelIdeal.Host.W3_v1 m ρ c i)).trans (hlb i)
  -- region 2's output
  have hV6 : ∀ t : Fin 8, (W6 m ρ c (Proc.devRef .tc main_v4) : S8x1x128.Idx → EReal) (ix3 t (0 : Fin 1) (0 : Fin 128))
      = Cert.Spec.kTile (Xm m c) lb (Cert.Spec.padC (Cm m c)) t :=
    fun t => (congrFun (W6_arr m ρ c 4) (ix3 t (0 : Fin 1) (0 : Fin 128))).trans
      (Cert.KernelIdeal.Reg2.tiles (V5 m ρ) c _ lb _ hX5 hL5 hN5 hT5 t 0)
  rw [Cert.KernelIdeal.Host.W7_v8]
  funext _
  unfold Cert.Spec.kResult
  simp only [hV6]

end Cert.KernelIdeal.Value

end
-- ==== Proof.RefA.lean ====
/-
  The reference's first stages read at an index: the normalised centres (each centre divided by its Euclidean norm), the similarities (a row of the batch against a normalised centre) and the centre-to-centre products (an unnormalised centre against a normalised one), each a sum over the 1024 coordinates.
-/
import proofs.«431374_j15917148799611_3_alg».proof.Proof.Gen.ReferenceIdeal.Read
import proofs.«431374_j15917148799611_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefA

open Cert.ReferenceIdeal Cert.ReferenceIdeal.Read
open Idealize.ShloMosaic Idealize.ShloMosaic.TcCoe Idealize.ShloMosaic.ValueIdx

variable (x0 : (⟨S8192x1024, .f32⟩ : BufTy).Contents (Elt Ideal)) (x1 : (⟨S8192, .i32⟩ : BufTy).Contents (Elt Ideal))
  (x2 : (⟨S1000x1024, .f32⟩ : BufTy).Contents (Elt Ideal))

/-- The batch and the centres as coordinate functions. -/
abbrev Xf : Fin 8192 → Fin 1024 → EReal := fun i d => x0 (ix2 i d)
abbrev Cf : Fin 1000 → Fin 1024 → EReal := fun o d => x2 (ix2 o d)

/-- Each centre divided by its norm. -/
theorem normed (o : Fin 1000) (d : Fin 1024) :
    val_main_v2 (F := Ideal) x2 (ix2 o d) = Cert.Spec.rNc (Cf x2) o d := by
  -- the broadcasts read the norm's column at row `o`, and the reduction's `k`-th term is entry `(o, k)`
  have e1 : idx_main_v1 (ix2 o d) = ix2 o (0 : Fin 1) :=
    funext fun a => Fin.ext (by match a with | ⟨0, _⟩ => rfl | ⟨1, _⟩ => rfl)
  have e2 : idx_main_call0_v2 (ix2 o (0 : Fin 1)) = ix1 o :=
    funext fun a => Fin.ext (by match a with | ⟨0, _⟩ => rfl)
  have e3 : ∀ k : Fin 1024, idx_main_call0_v1 (ix1 o) k = ix2 o k := fun k =>
    funext fun a => Fin.ext (by match a with | ⟨0, _⟩ => rfl | ⟨1, _⟩ => rfl)
  rw [val_main_v2_apply, val_main_v1_apply, val_main_v0_apply, val_main_call0_v2_apply, val_main_call0_v1_apply]
  -- the sum starts from the zero word, which is `0`: `0 + s = s`
  simp only [e1, e2, e3, val_main_call0_v0_apply, val_main_call0_cst_apply, Ideal.hostDivf_def, Ideal.hostUnary_sqrt_def,
    Ideal.mulf_def, Ideal.ofBits_def, Ideal.ofBits_zero_f32, zero_add]
  rfl

/-- A row's similarity to a class. -/
theorem sims (i : Fin 8192) (o : Fin 1000) :
    val_main_v4 (F := Ideal) x0 x2 (ix2 i o) = Cert.Spec.rSims (Xf x0) (Cf x2) i o := by
  -- the product's `k`-th term is batch entry `(i, k)` times the transposed entry `(k, o)`, the normalised entry `(o, k)`
  have el : ∀ k : Fin 1024, lidx_main_v4 (ix2 i o) k = ix2 i k := fun k =>
    funext fun a => Fin.ext (by match a with | ⟨0, _⟩ => rfl | ⟨1, _⟩ => rfl)
  have er : ∀ k : Fin 1024, idx_main_v3 (ridx_main_v4 (ix2 i o) k) = ix2 o k := fun k =>
    funext fun a => Fin.ext (by match a with | ⟨0, _⟩ => rfl | ⟨1, _⟩ => rfl)
  rw [val_main_v4_apply]
  simp only [val_main_v3_apply, el, er, normed]
  rfl

/-- An unnormalised centre against a normalised one. -/
theorem c2c (l o : Fin 1000) :
    val_main_v33 (F := Ideal) x2 (ix2 l o) = Cert.Spec.rC2c (Cf x2) l o := by
  -- the product's `k`-th term is centre entry `(l, k)` times the transposed entry `(k, o)`, the normalised entry `(o, k)`
  have el : ∀ k : Fin 1024, lidx_main_v33 (ix2 l o) k = ix2 l k := fun k =>
    funext fun a => Fin.ext (by match a with | ⟨0, _⟩ => rfl | ⟨1, _⟩ => rfl)
  have er : ∀ k : Fin 1024, idx_main_v32 (ridx_main_v33 (ix2 l o) k) = ix2 o k := fun k =>
    funext fun a => Fin.ext (by match a with | ⟨0, _⟩ => rfl | ⟨1, _⟩ => rfl)
  rw [val_main_v33_apply]
  simp only [val_main_v32_apply, el, er, normed]
  rfl

end Cert.ReferenceIdeal.RefA

end
-- ==== Proof.RefP.lean ====
/-
  The reference's two per-row distances read at an index.

  The distance to the own class is 1 - s(i, lb i): the gather has both axes of the similarities collapsed and
  start-indexed, so its element i is the similarity at (row word, label word) of row i of the start indices, each word
  read signed and clamped into its axis; the row word is the word of i and the label word the word of lb i, both small
  and not negative, so the negative wrap leaves them, the signed reading is the number itself and the clamp
  (to 8191, to 999) does nothing.

  The least distance to another class is the minimum over the 1000 classes, from +infinity, of the distance with
  +infinity at the own class: the mask compares the label's word with the class's word, and two words of numbers below
  2^32 are equal exactly when the numbers are.
-/
import proofs.«431374_j15917148799611_3_alg».proof.Proof.Gen.ReferenceIdeal.Read
import proofs.«431374_j15917148799611_3_alg».proof.Proof.Spec
import proofs.«431374_j15917148799611_3_alg».proof.Proof.RefA
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefP

open Cert.ReferenceIdeal Cert.ReferenceIdeal.Read
open Idealize.ShloMosaic Idealize.ShloMosaic.TcCoe Idealize.ShloMosaic.ValueIdx

variable (x0 : (⟨S8192x1024, .f32⟩ : BufTy).Contents (Elt Ideal)) (x1 : (⟨S8192, .i32⟩ : BufTy).Contents (Elt Ideal))
  (x2 : (⟨S1000x1024, .f32⟩ : BufTy).Contents (Elt Ideal))

open Cert.ReferenceIdeal.RefA

/-! ## Words of small numbers -/

/-- The word of a number below 2^31, read signed, is the number. -/
private theorem toInt_ofNat_small (n : Nat) (hn : n < 2 ^ 31) : (BitVec.ofNat 32 n).toInt = (n : Int) := by
  have h : (BitVec.ofNat 32 n).toNat = n := by
    rw [BitVec.toNat_ofNat]; exact Nat.mod_eq_of_lt (by omega)
  rw [BitVec.toInt_eq_toNat_of_lt (by rw [h]; omega), h]

/-- So its signed reading, cut off at zero, is the number too. -/
private theorem toNat_toInt_small (n : Nat) (hn : n < 2 ^ 31) : (BitVec.ofNat 32 n).toInt.toNat = n := by
  rw [toInt_ofNat_small n hn]; rfl

/-- The negative wrap `x < 0 ? x + m : x` leaves the word of a number below 2^31 as it is: it is not negative. -/
private theorem wrap_small (n : Nat) (hn : n < 2 ^ 31) (m : BitVec 32) :
    Scalar.select (IntOp.cmpi .slt (BitVec.ofNat 32 n) 0#32) (IntOp.addi (BitVec.ofNat 32 n) m) (BitVec.ofNat 32 n)
      = BitVec.ofNat 32 n := by
  have hs : (BitVec.ofNat 32 n).slt 0#32 = false := by
    rw [← Bool.not_eq_true, BitVec.slt_iff_toInt_lt, toInt_ofNat_small n hn]
    show ¬ ((n : Int) < 0)
    omega
  show Scalar.select (BitVec.ofBool ((BitVec.ofNat 32 n).slt 0#32)) _ _ = _
  rw [hs]
  exact select_zero _ _

/-- The words of two numbers below 2^32 compare equal exactly when the numbers are equal. -/
private theorem eq_word_iff (a b : Nat) (ha : a < 2 ^ 32) (hb : b < 2 ^ 32) :
    IntOp.cmpi .eq (BitVec.ofNat 32 a) (BitVec.ofNat 32 b) = 1#1 ↔ a = b := by
  constructor
  · intro h
    have h' : (BitVec.ofNat 32 a == BitVec.ofNat 32 b) = true := by
      cases hc : (BitVec.ofNat 32 a == BitVec.ofNat 32 b)
      · exfalso
        have e : IntOp.cmpi .eq (BitVec.ofNat 32 a) (BitVec.ofNat 32 b)
            = BitVec.ofBool (BitVec.ofNat 32 a == BitVec.ofNat 32 b) := rfl
        rw [e, hc] at h
        exact absurd h (by decide)
      · rfl
    have e := congrArg BitVec.toNat (beq_iff_eq.1 h')
    rw [BitVec.toNat_ofNat, BitVec.toNat_ofNat, Nat.mod_eq_of_lt ha, Nat.mod_eq_of_lt hb] at e
    exact e
  · intro h
    subst h
    show BitVec.ofBool (BitVec.ofNat 32 a == BitVec.ofNat 32 a) = 1#1
    rw [beq_self_eq_true]
    rfl

/-! ## The gather of the similarities at (row, label) -/

/-- The gather with both operand axes collapsed and start-indexed and the index vectors along axis 1: element `i` is the
    operand at (word at (i, 0), word at (i, 1)) of the start indices, each read signed and clamped into its axis; when
    the two readings are a row `i` and a class `l` the clamps (to 8191, to 999) do nothing. -/
private theorem gather_at {α : Type} (x : S8192x1000.Idx → α) (idx : IVec S8192x2 32) (i : Fin 8192) (l : Fin 1000)
    (h0 : (idx (ix2 i (0 : Fin 2))).toInt.toNat = i.val) (h1 : (idx (ix2 i (1 : Fin 2))).toInt.toNat = l.val) :
    Host.gather gather_S8192x1000_S8192x2_S8192_n_01_n_n_01_1_11 x idx (ix1 i) = x (ix2 i l) := by
  unfold Host.gather
  congr 1
  funext a
  refine Fin.ext ?_
  match a with
  | ⟨0, _⟩ =>
    show gather_S8192x1000_S8192x2_S8192_n_01_n_n_01_1_11.start (ix1 i) idx (0 : Fin 2)
      + gather_S8192x1000_S8192x2_S8192_n_01_n_n_01_1_11.batchCoord (ix1 i) (0 : Fin 2)
      + gather_S8192x1000_S8192x2_S8192_n_01_n_n_01_1_11.offCoord (ix1 i) (0 : Fin 2) = i.val
    have hm : (0 : Fin 2) ∈ gather_S8192x1000_S8192x2_S8192_n_01_n_n_01_1_11.startIndexMap := by decide
    rw [GatherDims.batchCoord_eq_zero _ _ _ List.not_mem_nil,
      GatherDims.offCoord_eq_zero _ _ _ (fun h => ((GatherDims.mem_sKept _ _).mp h).1 (by decide))]
    unfold GatherDims.start
    rw [dif_pos hm]
    have hsi : gather_S8192x1000_S8192x2_S8192_n_01_n_n_01_1_11.siIdx (ix1 i)
        ⟨List.idxOf (0 : Fin 2) gather_S8192x1000_S8192x2_S8192_n_01_n_n_01_1_11.startIndexMap,
          List.idxOf_lt_length_iff.2 hm⟩ = ix2 i (0 : Fin 2) := by
      funext b; refine Fin.ext ?_
      match b with
      | ⟨0, _⟩ => rfl
      | ⟨1, _⟩ => rfl
    rw [hsi, h0]
    show min i.val (8192 - 1) + 0 + 0 = i.val
    omega
  | ⟨1, _⟩ =>
    show gather_S8192x1000_S8192x2_S8192_n_01_n_n_01_1_11.start (ix1 i) idx (1 : Fin 2)
      + gather_S8192x1000_S8192x2_S8192_n_01_n_n_01_1_11.batchCoord (ix1 i) (1 : Fin 2)
      + gather_S8192x1000_S8192x2_S8192_n_01_n_n_01_1_11.offCoord (ix1 i) (1 : Fin 2) = l.val
    have hm : (1 : Fin 2) ∈ gather_S8192x1000_S8192x2_S8192_n_01_n_n_01_1_11.startIndexMap := by decide
    rw [GatherDims.batchCoord_eq_zero _ _ _ List.not_mem_nil,
      GatherDims.offCoord_eq_zero _ _ _ (fun h => ((GatherDims.mem_sKept _ _).mp h).1 (by decide))]
    unfold GatherDims.start
    rw [dif_pos hm]
    have hsi : gather_S8192x1000_S8192x2_S8192_n_01_n_n_01_1_11.siIdx (ix1 i)
        ⟨List.idxOf (1 : Fin 2) gather_S8192x1000_S8192x2_S8192_n_01_n_n_01_1_11.startIndexMap,
          List.idxOf_lt_length_iff.2 hm⟩ = ix2 i (1 : Fin 2) := by
      funext b; refine Fin.ext ?_
      match b with
      | ⟨0, _⟩ => rfl
      | ⟨1, _⟩ => rfl
    rw [hsi, h1]
    have hl := l.isLt
    show min l.val (1000 - 1) + 0 + 0 = l.val
    omega

/-- Row `i` of the start indices, column 0: the row iota through the negative wrap, the word of `i`, read signed `i`. -/
private theorem start_row (i : Fin 8192) :
    (val_main_v18 (F := Ideal) x1 (ix2 i (0 : Fin 2))).toInt.toNat = i.val := by
  have e : val_main_v18 (F := Ideal) x1 (ix2 i (0 : Fin 2)) = val_main_v16 (F := Ideal) (ix2 i (0 : Fin 1)) := by
    unfold val_main_v18
    exact concatenate_pair_apply_left (t := S8192x2) (s₁ := S8192x1) (s₂ := S8192x1) (1 : Fin 2) _ _ _ (ix2 i (0 : Fin 2)) rfl
      (ix2 i (0 : Fin 1))
      (fun b => match b with | ⟨0, _⟩ => rfl | ⟨1, _⟩ => rfl)
  have ei : idx_main_v16 (ix2 i (0 : Fin 1)) = ix1 i := funext fun a => match a with | ⟨0, _⟩ => rfl
  have hi := i.isLt
  rw [e, val_main_v16_apply, ei, val_main_v10_apply, val_main_v7_apply, val_main_v9_apply, val_main_v5_apply,
    val_main_v6_apply, val_main_c_apply]
  show (Scalar.select (IntOp.cmpi .slt (BitVec.ofNat 32 i.val) 0#32) (IntOp.addi (BitVec.ofNat 32 i.val) _)
    (BitVec.ofNat 32 i.val)).toInt.toNat = i.val
  rw [wrap_small _ (by omega), toNat_toInt_small _ (by omega)]

/-- Row `i` of the start indices, column 1: the label's word through the negative wrap, read signed `lb i`. -/
private theorem start_label (lb : Fin 8192 → Fin 1000) (hlb : ∀ i : Fin 8192, x1 (ix1 i) = BitVec.ofNat 32 (lb i).val)
    (i : Fin 8192) : (val_main_v18 (F := Ideal) x1 (ix2 i (1 : Fin 2))).toInt.toNat = (lb i).val := by
  have e : val_main_v18 (F := Ideal) x1 (ix2 i (1 : Fin 2)) = val_main_v17 (F := Ideal) x1 (ix2 i (0 : Fin 1)) := by
    unfold val_main_v18
    exact concatenate_pair_apply_right (t := S8192x2) (s₁ := S8192x1) (s₂ := S8192x1) (1 : Fin 2) _ _ _ (ix2 i (1 : Fin 2)) rfl rfl
      (ix2 i (0 : Fin 1))
      (fun b => match b with | ⟨0, _⟩ => fun _ => rfl | ⟨1, _⟩ => fun h => absurd rfl h) rfl
  have ei : idx_main_v17 (ix2 i (0 : Fin 1)) = ix1 i := funext fun a => match a with | ⟨0, _⟩ => rfl
  have hl := (lb i).isLt
  rw [e, val_main_v17_apply, ei, val_main_v15_apply, val_main_v12_apply, val_main_v14_apply, val_main_v11_apply,
    val_main_c_1_apply, hlb i]
  show (Scalar.select (IntOp.cmpi .slt (BitVec.ofNat 32 (lb i).val) 0#32) (IntOp.addi (BitVec.ofNat 32 (lb i).val) _)
    (BitVec.ofNat 32 (lb i).val)).toInt.toNat = (lb i).val
  rw [wrap_small _ (by omega), toNat_toInt_small _ (by omega)]

/-- The distance to the own class: the gather reads the similarity at the row's label. -/
theorem pos (lb : Fin 8192 → Fin 1000) (hlb : ∀ i : Fin 8192, x1 (ix1 i) = BitVec.ofNat 32 (lb i).val) (i : Fin 8192) :
    val_main_v21 (F := Ideal) x0 x1 x2 (ix1 i) = Cert.Spec.rPos (Xf x0) lb (Cf x2) i := by
  have hg : val_main_v19 (F := Ideal) x0 x1 x2 (ix1 i) = Cert.Spec.rSims (Xf x0) (Cf x2) i (lb i) := by
    unfold val_main_v19
    rw [gather_at _ _ i (lb i) (start_row x1 i) (start_label x1 lb hlb i)]
    exact sims x0 x2 i (lb i)
  rw [val_main_v21_apply, hg, val_main_v20_apply, val_main_cst_apply]
  rfl

/-! ## The minimum over the other classes -/

/-- The reduced index `i` with class `o` put back on axis 1 is (i, o). -/
private theorem lift_row (h : S8192x1000.Reduces [1] S8192) (i : Fin 8192) (o : Fin 1000) :
    h.lift (ix1 i) o = ix2 i o := by
  funext c; refine Fin.ext ?_
  match c with
  | ⟨0, _⟩ => rfl
  | ⟨1, _⟩ => rfl

/-- The masked distances at (i, o): +infinity at the own class, else 1 - s(i, o). -/
private theorem masked (lb : Fin 8192 → Fin 1000) (hlb : ∀ i : Fin 8192, x1 (ix1 i) = BitVec.ofNat 32 (lb i).val)
    (i : Fin 8192) (o : Fin 1000) :
    val_main_v30 (F := Ideal) x0 x1 x2 (ix2 i o)
      = if lb i = o then ⊤ else Cert.Spec.one - Cert.Spec.rSims (Xf x0) (Cf x2) i o := by
  have e25 : idx_main_v22 (idx_main_v25 (ix2 i o)) = ix1 i := funext fun a => match a with | ⟨0, _⟩ => rfl
  have hl := (lb i).isLt
  have ho := o.isLt
  have hmask : val_main_v27 (F := Ideal) x1 (ix2 i o)
      = IntOp.cmpi .eq (BitVec.ofNat 32 (lb i).val) (BitVec.ofNat 32 o.val) := by
    rw [val_main_v27_apply, val_main_v25_apply, val_main_v22_apply, e25, hlb i, val_main_v26_apply, val_main_v24_apply,
      val_main_v23_apply]
  have htop : val_main_call1_v1 (F := Ideal) (ix2 i o) = (⊤ : EReal) := by
    rw [val_main_call1_v1_apply, val_main_call1_v0_apply, val_main_cst_4_apply]
    show Ideal.ofBits .f32 0x7F800000#32 = ⊤
    simp [Ideal.ofBits, Ideal.ieee]
  have hd : val_main_v29 (F := Ideal) x0 x2 (ix2 i o) = Cert.Spec.one - Cert.Spec.rSims (Xf x0) (Cf x2) i o := by
    rw [val_main_v29_apply, sims x0 x2 i o, val_main_v28_apply, val_main_cst_3_apply]
    rfl
  rw [val_main_v30_apply, hmask, htop, hd]
  by_cases hc : lb i = o
  · rw [if_pos hc, (eq_word_iff _ _ (by omega) (by omega)).2 (congrArg Fin.val hc)]
    exact select_one _ _
  · rw [if_neg hc, eq_zero_of_ne_one (fun h => hc (Fin.ext ((eq_word_iff _ _ (by omega) (by omega)).1 h)))]
    exact select_zero _ _

/-- The least distance to another class. -/
theorem neg (lb : Fin 8192 → Fin 1000) (hlb : ∀ i : Fin 8192, x1 (ix1 i) = BitVec.ofNat 32 (lb i).val) (i : Fin 8192) :
    val_main_v31 (F := Ideal) x0 x1 x2 (ix1 i) = Cert.Spec.rNeg (Xf x0) lb (Cf x2) i := by
  have h : S8192x1000.Reduces [1] S8192 := by decide
  unfold val_main_v31
  rw [Host.reduce_eq_fold_single FloatOps.minimumf _ _ _ h]
  have htop : val_main_cst_5 (F := Ideal) (Shape.Idx.first Cert.ReferenceIdeal.Gen.h_S_) = (⊤ : EReal) := by
    rw [val_main_cst_5_apply]
    show Ideal.ofBits .f32 0x7F800000#32 = ⊤
    simp [Ideal.ofBits, Ideal.ieee]
  rw [htop]
  show (Finset.univ : Finset (Fin 1000)).fold min (⊤ : EReal) (val_main_v30 (F := Ideal) x0 x1 x2 ∘ h.lift (ix1 i)) = _
  unfold Cert.Spec.rNeg
  refine Finset.fold_congr fun o _ => ?_
  show val_main_v30 (F := Ideal) x0 x1 x2 (h.lift (ix1 i) o) = _
  rw [lift_row h i o]
  exact masked x0 x1 x2 lb hlb i o

end Cert.ReferenceIdeal.RefP

end
-- ==== Proof.RefB.lean ====
/-
  The reference's remaining stages: per row the least centre-to-centre distance from its class (a gather of the row of products at the label, then a minimum with the own class at +infinity), the two hinge terms, their sum over the batch and the division by the batch size: the reference's result is `Spec.rResult`.

  The gather reads, for row `i` and class `o`, the product at (start, `o`), where the start is the row's label word read as a signed integer and clamped into 0 … 999 (axis 0 is collapsed and start-indexed with slice size 1; axis 1 is the one offset axis with slice size 1000, so its start is 0 and its coordinate is `o`). The label is a class in range, so it is not negative (the wrap `x < 0 ? x + 1000 : x` leaves it as it is) and the clamp leaves it as it is: entry (i, o) is the product at (lb i, o). The mask compares the label word with the class word, and two words of numbers below 1000 are equal exactly when the numbers are. The minimum over the classes is a fold of `min` from +infinity over the 1000 coordinates of the reduced axis.
-/
import proofs.«431374_j15917148799611_3_alg».proof.Proof.Gen.ReferenceIdeal.Read
import proofs.«431374_j15917148799611_3_alg».proof.Proof.Spec
import proofs.«431374_j15917148799611_3_alg».proof.Proof.RefA
import proofs.«431374_j15917148799611_3_alg».proof.Proof.RefP
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefB

open Cert.ReferenceIdeal Cert.ReferenceIdeal.Read
open Idealize.ShloMosaic Idealize.ShloMosaic.TcCoe Idealize.ShloMosaic.ValueIdx

variable (x0 : (⟨S8192x1024, .f32⟩ : BufTy).Contents (Elt Ideal)) (x1 : (⟨S8192, .i32⟩ : BufTy).Contents (Elt Ideal))
  (x2 : (⟨S1000x1024, .f32⟩ : BufTy).Contents (Elt Ideal))

open Cert.ReferenceIdeal.RefA Cert.ReferenceIdeal.RefP

/-! ## Words of numbers below 1000 -/

/-- The 32-bit word of a number below 1000 is that number … -/
theorem toNat_label (n : Nat) (h : n < 1000) : (BitVec.ofNat 32 n).toNat = n := by
  rw [BitVec.toNat_ofNat]; exact Nat.mod_eq_of_lt (by omega)

/-- … also read as a signed integer (it is below 2^31) … -/
theorem toInt_label (n : Nat) (h : n < 1000) : (BitVec.ofNat 32 n).toInt = (n : Int) := by
  rw [BitVec.toInt_eq_toNat_cond, toNat_label n h]
  rw [if_pos (by omega)]

/-- … so it is not negative. -/
theorem slt_label (n : Nat) (h : n < 1000) : IntOp.cmpi .slt (BitVec.ofNat 32 n) 0#32 = 0#1 := by
  show BitVec.ofBool ((BitVec.ofNat 32 n).slt 0#32) = 0#1
  have : (BitVec.ofNat 32 n).slt 0#32 = false := by
    simp only [BitVec.slt, toInt_label n h]
    simp
  rw [this]; rfl

/-- Two such words are equal exactly when the numbers are. -/
theorem cmpi_eq_label (a b : Nat) (ha : a < 1000) (hb : b < 1000) :
    IntOp.cmpi .eq (BitVec.ofNat 32 a) (BitVec.ofNat 32 b) = 1#1 ↔ a = b := by
  show BitVec.ofBool (BitVec.ofNat 32 a == BitVec.ofNat 32 b) = 1#1 ↔ a = b
  constructor
  · intro h
    have h2 : (BitVec.ofNat 32 a == BitVec.ofNat 32 b) = true := by
      cases hc : (BitVec.ofNat 32 a == BitVec.ofNat 32 b) with
      | true => rfl
      | false => rw [hc] at h; exact absurd h (by decide)
    have h3 : BitVec.ofNat 32 a = BitVec.ofNat 32 b := by simpa using h2
    have h4 := congrArg BitVec.toNat h3
    rw [toNat_label a ha, toNat_label b hb] at h4
    exact h4
  · intro h; subst h; simp

/-- The f32 word of +infinity is the top of the extended reals. -/
theorem top_word : Ideal.ofBits .f32 0x7F800000#32 = (⊤ : EReal) := by simp [Ideal.ofBits, Ideal.ieee]

/-! ## The gather of rows read at an index -/

/-- Entry (i, o) of the gather of rows is the operand at (start, o): the start is row `i`'s start index read signed and
    clamped into 0 … 999 (axis 0: collapsed, start-indexed, slice size 1); axis 1 is the offset axis, not start-indexed,
    so its coordinate is `o` itself. -/
theorem gather_rows {α : Type} (x : S1000x1000.Idx → α) (idx : IVec S8192x1 32) (i : Fin 8192) (o : Fin 1000) :
    Host.gather gather_S1000x1000_S8192x1_S8192x1000_1_0_n_n_0_1_11000 x idx (ix2 i o)
      = x (ix2 (⟨min (idx (ix2 i (0 : Fin 1))).toInt.toNat 999, by omega⟩ : Fin 1000) o) := by
  unfold Host.gather
  congr 1
  funext a
  refine Fin.ext ?_
  match a with
  | ⟨0, _⟩ =>
    show gather_S1000x1000_S8192x1_S8192x1000_1_0_n_n_0_1_11000.start (ix2 i o) idx 0
      + gather_S1000x1000_S8192x1_S8192x1000_1_0_n_n_0_1_11000.batchCoord (ix2 i o) 0
      + gather_S1000x1000_S8192x1_S8192x1000_1_0_n_n_0_1_11000.offCoord (ix2 i o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S1000x1000.rank) ∈ gather_S1000x1000_S8192x1_S8192x1000_1_0_n_n_0_1_11000.startIndexMap from
      List.mem_singleton.mpr rfl)]
    have hsi : gather_S1000x1000_S8192x1_S8192x1000_1_0_n_n_0_1_11000.siIdx (ix2 i o)
        ⟨List.idxOf (0 : Fin S1000x1000.rank) gather_S1000x1000_S8192x1_S8192x1000_1_0_n_n_0_1_11000.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show gather_S1000x1000_S8192x1_S8192x1000_1_0_n_n_0_1_11000.start (ix2 i o) idx 1
      + gather_S1000x1000_S8192x1_S8192x1000_1_0_n_n_0_1_11000.batchCoord (ix2 i o) 1
      + gather_S1000x1000_S8192x1_S8192x1000_1_0_n_n_0_1_11000.offCoord (ix2 i o) 1 = o.val
    rw [GatherDims.batchCoord_eq_zero _ _ _ List.not_mem_nil]
    unfold GatherDims.start
    rw [dif_neg (show (1 : Fin S1000x1000.rank) ∉ gather_S1000x1000_S8192x1_S8192x1000_1_0_n_n_0_1_11000.startIndexMap from by decide)]
    unfold GatherDims.offCoord
    rw [dif_pos (show (1 : Fin S1000x1000.rank) ∈ gather_S1000x1000_S8192x1_S8192x1000_1_0_n_n_0_1_11000.sKept from by decide)]
    rw [Nat.zero_add]
    rfl

/-! ## The row of products at the label, the mask, the masked entry -/

/-- The wrapped label of row `i` is its label: a class in range is not negative, so `x < 0 ? x + 1000 : x` is `x`. -/
theorem wrapped (lb : Fin 8192 → Fin 1000) (hlb : ∀ i : Fin 8192, x1 (ix1 i) = BitVec.ofNat 32 (lb i).val) (i : Fin 8192) :
    val_main_v39 (F := Ideal) x1 (ix2 i (0 : Fin 1)) = BitVec.ofNat 32 (lb i).val := by
  have e : idx_main_v39 (ix2 i (0 : Fin 1)) = ix1 i := funext fun a => Fin.ext (by match a with | ⟨0, _⟩ => rfl)
  rw [val_main_v39_apply, e, val_main_v38_apply, val_main_v35_apply, val_main_v34_apply, val_main_c_6_apply, hlb i,
    slt_label _ (lb i).isLt, select_zero]

/-- Entry (i, o) of the gathered rows is the product at (lb i, o): the clamp into 0 … 999 leaves a class in range as it is. -/
theorem row_read (lb : Fin 8192 → Fin 1000) (hlb : ∀ i : Fin 8192, x1 (ix1 i) = BitVec.ofNat 32 (lb i).val) (i : Fin 8192)
    (o : Fin 1000) : val_main_v40 (F := Ideal) x1 x2 (ix2 i o) = val_main_v33 (F := Ideal) x2 (ix2 (lb i) o) := by
  unfold val_main_v40
  generalize val_main_v33 (F := Ideal) x2 = y
  refine (gather_rows y (val_main_v39 (F := Ideal) x1) i o).trans ?_
  refine congrArg y ?_
  have hk : min (val_main_v39 (F := Ideal) x1 (ix2 i (0 : Fin 1))).toInt.toNat 999 = (lb i).val := by
    rw [wrapped x1 lb hlb i, toInt_label _ (lb i).isLt]
    have := (lb i).isLt
    omega
  funext a
  match a with
  | ⟨0, _⟩ => exact Fin.ext hk
  | ⟨1, _⟩ => rfl

/-- The mask at (i, o) says the label is the class. -/
theorem mask_read (lb : Fin 8192 → Fin 1000) (hlb : ∀ i : Fin 8192, x1 (ix1 i) = BitVec.ofNat 32 (lb i).val) (i : Fin 8192)
    (o : Fin 1000) : val_main_v27 (F := Ideal) x1 (ix2 i o) = 1#1 ↔ lb i = o := by
  have e1 : idx_main_v22 (idx_main_v25 (ix2 i o)) = ix1 i := funext fun a => Fin.ext (by match a with | ⟨0, _⟩ => rfl)
  rw [val_main_v27_apply, val_main_v25_apply, val_main_v22_apply, val_main_v26_apply, val_main_v24_apply, val_main_v23_apply,
    e1, hlb i]
  show IntOp.cmpi .eq (BitVec.ofNat 32 (lb i).val) (BitVec.ofNat 32 o.val) = 1#1 ↔ lb i = o
  rw [cmpi_eq_label _ _ (lb i).isLt o.isLt]
  exact ⟨fun h => Fin.ext h, fun h => congrArg Fin.val h⟩

/-- The masked entry: +infinity at the own class, else one minus the centre-to-centre product. -/
theorem masked_read (lb : Fin 8192 → Fin 1000) (hlb : ∀ i : Fin 8192, x1 (ix1 i) = BitVec.ofNat 32 (lb i).val) (i : Fin 8192)
    (o : Fin 1000) :
    val_main_v43 (F := Ideal) x1 x2 (ix2 i o)
      = if lb i = o then (⊤ : EReal) else Cert.Spec.one - Cert.Spec.rC2c (Cf x2) (lb i) o := by
  rw [val_main_v43_apply]
  by_cases h : lb i = o
  · rw [if_pos h, (mask_read x1 lb hlb i o).mpr h, select_one, val_main_call2_v1_apply, val_main_call2_v0_apply,
      val_main_cst_9_apply]
    exact top_word
  · rw [if_neg h, eq_zero_of_ne_one (fun hc => h ((mask_read x1 lb hlb i o).mp hc)), select_zero, val_main_v42_apply,
      val_main_v41_apply, val_main_cst_8_apply, row_read x1 x2 lb hlb i o, c2c x2 (lb i) o]
    rfl

/-- The reduced index `i` with class `k` put back on axis 1 is (i, k). -/
theorem lift_row (h : S8192x1000.Reduces [1] S8192) (i : Fin 8192) (k : Fin (S8192x1000.size 1)) :
    h.lift (ix1 i) k = ix2 i (⟨k.val, k.isLt⟩ : Fin 1000) := by
  funext c; apply Fin.ext
  fin_cases c <;> rfl

/-- The least centre-to-centre distance from the row's class to another class. -/
theorem negc2c (lb : Fin 8192 → Fin 1000) (hlb : ∀ i : Fin 8192, x1 (ix1 i) = BitVec.ofNat 32 (lb i).val) (i : Fin 8192) :
    val_main_v44 (F := Ideal) x1 x2 (ix1 i) = Cert.Spec.rNegC2c lb (Cf x2) i := by
  have hred : S8192x1000.Reduces [1] S8192 := by decide
  unfold val_main_v44
  rw [Host.reduce_eq_fold_single FloatOps.minimumf _ _ Gen.reducesTo_S8192x1000_S8192_d1 hred Gen.h_S_]
  have hf : (val_main_v43 (F := Ideal) x1 x2 ∘ hred.lift (ix1 i))
      = fun o : Fin 1000 => if lb i = o then (⊤ : EReal) else Cert.Spec.one - Cert.Spec.rC2c (Cf x2) (lb i) o :=
    funext fun k => (congrArg (val_main_v43 (F := Ideal) x1 x2) (lift_row hred i k)).trans
      (masked_read x1 x2 lb hlb i ⟨k.val, k.isLt⟩)
  have h0 : val_main_cst_10 (F := Ideal) (Shape.Idx.first Gen.h_S_) = (⊤ : EReal) := top_word
  rw [h0]
  unfold Cert.Spec.rNegC2c
  exact congrArg (fun f : Fin 1000 → EReal => Finset.fold min ⊤ f (Finset.univ : Finset (Fin 1000))) hf

/-! ## The loss per row, its sum and the mean -/

/-- A rank-1 index of the batch is its coordinate. -/
def rowEquiv : S8192.Idx ≃ Fin 8192 where
  toFun j := j 0
  invFun := ix1
  left_inv j := (eq_ix1 j).symm
  right_inv _ := rfl

/-- Row `i`'s two hinge terms. -/
theorem loss_read (lb : Fin 8192 → Fin 1000) (hlb : ∀ i : Fin 8192, x1 (ix1 i) = BitVec.ofNat 32 (lb i).val) (i : Fin 8192) :
    val_main_v52 (F := Ideal) x0 x1 x2 (ix1 i) = Cert.Spec.rLoss (Xf x0) lb (Cf x2) i := by
  rw [val_main_v52_apply, val_main_v48_apply, val_main_v47_apply, val_main_v46_apply, val_main_v45_apply, val_main_cst_11_apply,
    val_main_call3_v0_apply, val_main_call3_cst_apply, val_main_v51_apply, val_main_v50_apply, val_main_v49_apply,
    val_main_cst_12_apply, val_main_call4_v0_apply, val_main_call4_cst_apply, pos x0 x1 x2 lb hlb i, neg x0 x1 x2 lb hlb i,
    negc2c x1 x2 lb hlb i]
  simp only [Ideal.addf_def, Ideal.subf_def, Ideal.maximumf_def, Ideal.ofBits_def, Ideal.ofBits_zero_f32]
  rfl

/-- The reference's result is the mean loss. -/
theorem result (lb : Fin 8192 → Fin 1000) (hlb : ∀ i : Fin 8192, x1 (ix1 i) = BitVec.ofNat 32 (lb i).val) :
    val_main_v54 (F := Ideal) x0 x1 x2 = fun _ => Cert.Spec.rResult (Xf x0) lb (Cf x2) := by
  funext j
  rw [val_main_v54_apply, val_main_v53_apply, val_main_cst_13_apply, val_main_cst_14_apply]
  simp only [Ideal.hostDivf_def, Ideal.ofBits_def, Ideal.ofBits_zero_f32, zero_add]
  unfold Cert.Spec.rResult
  have hs : ∑ k : S8192.Idx, val_main_v52 (F := Ideal) x0 x1 x2 k = ∑ i : Fin 8192, Cert.Spec.rLoss (Xf x0) lb (Cf x2) i := by
    rw [← Equiv.sum_comp rowEquiv.symm]
    exact Finset.sum_congr rfl fun i _ => loss_read x0 x1 x2 lb hlb i
  rw [hs]

end Cert.ReferenceIdeal.RefB

end
-- ==== Proof.PreDecode.lean ====
/-
  What the precondition says of the inputs, decoded from its printed form: every entry of the batch and of the centres
  is a real number; every label is the word of a class in 0 … 999; and every centre has a positive sum of squares.
-/
import proofs.«431374_j15917148799611_3_alg».proof.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

open scoped BigOperators

namespace Cert.PreDecode

open Cert.Pre_finite_inputs
open Idealize.ShloMosaic Idealize.ShloMosaic.ValueIdx

variable [Cert.Pre_finite_inputs.Facts]

/-- The scalar shape has one index. -/
instance subsingleton_scalar_idx : Subsingleton S_.Idx := ⟨fun a b => funext fun d => d.elim0⟩

/-- A conjunction of two one-bit arrays is 1 at an index exactly when both are 1 there. -/
theorem andi_apply_eq_one {s : Shape} (a b : IVec s 1) (i : s.Idx) :
    andi a b i = 1#1 ↔ a i = 1#1 ∧ b i = 1#1 := IntOp.andi_eq_one

/-- The f32 word 0x7F800000 is +∞. -/
theorem ofBits_inf : Ideal.ofBits .f32 0x7F800000#32 = ⊤ := by simp [Ideal.ofBits, Ideal.ieee]

/-- An extended real whose absolute value max x (−x) is below +∞ is a real number: at ⊤ and at ⊥ that maximum is ⊤. -/
theorem real_of_abs_lt_inf (x : EReal)
    (h : Ideal.cmp .olt (max x (-x)) (Ideal.ofBits .f32 0x7F800000#32) = 1#1) : ∃ r : ℝ, x = (r : EReal) := by
  rw [ofBits_inf] at h
  change BitVec.ofBool (decide (max x (-x) < ⊤)) = 1#1 at h
  rw [StableHlo.Predicate.ofBool_eq_one_iff, decide_eq_true_eq] at h
  induction x using EReal.rec with
  | bot => simp at h
  | coe r => exact ⟨r, rfl⟩
  | top => simp at h

/-- A 32-bit word that is ≥ 0 and < 1000 read signed is below 1000 read unsigned: nonnegative signed, its top bit is
    clear, so both readings agree. -/
theorem toNat_lt_of_signed_range (w : BitVec 32) (h0 : IntOp.cmpi .sge w 0#32 = 1#1)
    (h1 : IntOp.cmpi .slt w 1000#32 = 1#1) : w.toNat < 1000 := by
  rw [IntOp.cmpi_sge, show (0#32 : BitVec 32).toInt = 0 from by decide] at h0
  rw [IntOp.cmpi_slt, show (1000#32 : BitVec 32).toInt = 1000 from by decide] at h1
  have hw : 2 * w.toNat < 2 ^ 32 := BitVec.toInt_pos_iff.mp h0
  rw [BitVec.toInt_eq_toNat_of_lt hw] at h1
  omega

/-- Row o of the centres with column k inserted on the summed axis is the index (o, k). -/
theorem lift_row (hR : S1000x1024.Reduces [1] S1000) (o : Fin 1000) (k : Fin 1024) :
    hR.lift (ix1 o) k = ix2 o k := by
  funext a
  match a with
  | ⟨0, _⟩ => exact Fin.ext rfl
  | ⟨1, _⟩ => exact Fin.ext rfl

/-- The last conjunct at class o: the sum over the row from the zero word is 0 + ∑, and "greater than the zero word" is
    0 < ∑ of the squares. -/
theorem sq_sum_pos (x2 : FVec Ideal S1000x1024 .f32) (hr : S1000x1024.ReducesTo [1] S1000) (hu : 0 < S_.numel)
    (hb : S_.BroadcastsInDim S1000 (![] : Fin 0 → Fin S1000.rank)) (o : Fin 1000)
    (h : cmpf .ogt (Host.reduceAdd (F := Ideal) (mulf x2 x2) (constant (F := Ideal) S_ .f32 0x00000000#32) hr hu)
          (broadcastInDim S1000 ![] hb (constant (F := Ideal) S_ .f32 0x00000000#32)) (ix1 o) = 1#1) :
    (0 : EReal) < ∑ d : Fin 1024, x2 (ix2 o d) * x2 (ix2 o d) := by
  have hR : S1000x1024.Reduces [1] S1000 := by decide
  change Ideal.cmp .ogt (Ideal.hostReduceAdd hr (mulf x2 x2) (Ideal.ofBits .f32 0x00000000#32) (ix1 o))
      (Ideal.ofBits .f32 0x00000000#32) = 1#1 at h
  rw [Ideal.hostReduceAdd_single hr hR, Ideal.ofBits_zero_f32, zero_add] at h
  change BitVec.ofBool (decide ((0 : EReal) < ∑ k : Fin 1024, mulf x2 x2 (hR.lift (ix1 o) k))) = 1#1 at h
  rw [StableHlo.Predicate.ofBool_eq_one_iff, decide_eq_true_eq] at h
  simpa only [lift_row, mulf_apply] using h

/-- The precondition, all ones, gives the four facts the proof uses. -/
theorem decode (x0 : FVec Ideal S8192x1024 .f32) (x1 : IVec S8192 32) (x2 : FVec Ideal S1000x1024 .f32)
    (h : Cert.Pre_finite_inputs.fn (F := Ideal) x0 x1 x2 = fun _ => 1#1) :
    (∀ (i : Fin 8192) (d : Fin 1024), ∃ r : ℝ, x0 (ix2 i d) = (r : EReal))
    ∧ (∀ (o : Fin 1000) (d : Fin 1024), ∃ r : ℝ, x2 (ix2 o d) = (r : EReal))
    ∧ (∃ lb : Fin 8192 → Fin 1000, ∀ i : Fin 8192, x1 (ix1 i) = BitVec.ofNat 32 (lb i).val)
    ∧ (∀ o : Fin 1000, (0 : EReal) < ∑ d : Fin 1024, x2 (ix2 o d) * x2 (ix2 o d)) := by
  have e := congrFun h ix0
  dsimp only [Cert.Pre_finite_inputs.fn, Cert.Pre_finite_inputs.fn_part1] at e
  simp only [andi_apply_eq_one] at e
  obtain ⟨⟨⟨⟨hx, hc⟩, hge⟩, hlt⟩, hpos⟩ := e
  refine ⟨fun i d => ?_, fun o d => ?_, ?_, fun o => ?_⟩
  · exact real_of_abs_lt_inf _ (Host.reduce_andi_all _ _ _ _ _ hx (ix2 i d))
  · exact real_of_abs_lt_inf _ (Host.reduce_andi_all _ _ _ _ _ hc (ix2 o d))
  · have hw : ∀ i : Fin 8192, (x1 (ix1 i)).toNat < 1000 := fun i =>
      toNat_lt_of_signed_range _ (Host.reduce_andi_all _ _ _ _ _ hge (ix1 i)) (Host.reduce_andi_all _ _ _ _ _ hlt (ix1 i))
    exact ⟨fun i => ⟨(x1 (ix1 i)).toNat, hw i⟩, fun i => BitVec.eq_of_toNat_eq (by
      rw [BitVec.toNat_ofNat, Nat.mod_eq_of_lt (x1 (ix1 i)).isLt])⟩
  · exact sq_sum_pos x2 _ _ _ o (Host.reduce_andi_all _ _ _ _ _ hpos (ix1 o))

end Cert.PreDecode

end
-- ==== Proof.MathNorm.lean ====
/-
  The two normalisations agree. On a real class the centre's sum of squares is positive, so its norm is positive and the kernel's divisor is the norm: both sides divide by the same real. On a padding row every entry is zero, so the kernel's quotient by one is zero. The normalised entries are real numbers.
-/
import proofs.«431374_j15917148799611_3_alg».proof.Proof.Spec
import Mathlib.Data.EReal.Basic
import Mathlib.Data.EReal.Operations
import Mathlib.Data.EReal.Inv
import Mathlib.Algebra.BigOperators.Fin
import Mathlib.Analysis.SpecialFunctions.Pow.Real

noncomputable section

open scoped BigOperators

namespace Cert.Math

open Cert.Spec Idealize.ShloMosaic

/-- The f32 word of 1.0 is the real number one: sign 0, exponent field 127, fraction 0, so (2^23 + 0) * 2^(127 - 127 - 23) = 1. -/
theorem one_eq : Cert.Spec.one = ((1 : ℝ) : EReal) := by
  show Ideal.ofBits .f32 0x3F800000#32 = ((1 : ℝ) : EReal)
  simp [Ideal.ofBits, Ideal.ieee, -EReal.coe_mul]
  norm_num

/-- The margin's word is a real number: its exponent field is 127, not the all-ones field, so the word denotes a coerced real. -/
theorem margin_real : ∃ r : ℝ, Cert.Spec.margin = (r : EReal) := by
  show ∃ r : ℝ, Ideal.ofBits .f32 0x3FB33333#32 = (r : EReal)
  simp only [Ideal.ofBits, Ideal.ieee]
  rw [if_neg (by decide), if_neg (by decide)]
  exact ⟨_, rfl⟩

/-- The coercion of the reals into the extended reals commutes with a finite sum (induction on the index set, by additivity of the coercion). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square root of zero is zero. -/
theorem sqrt_zero : Ideal.sqrt 0 = 0 := by
  rw [← EReal.coe_zero, Ideal.sqrt_coe, if_neg (lt_irrefl _), Real.sqrt_zero]

section
variable (C : Fin 1000 → Fin 1024 → EReal) (hC : ∀ o d, ∃ r : ℝ, C o d = (r : EReal))
  (hpos : ∀ o : Fin 1000, (0 : EReal) < ∑ d : Fin 1024, C o d * C o d)
include hC hpos

/-- A centre's norm is a positive real: the sum of squares of real entries is a real, positive by hypothesis, and its real square root is positive. -/
theorem rNorm_pos_real (o : Fin 1000) : ∃ n : ℝ, 0 < n ∧ rNorm C o = (n : EReal) := by
  choose c hc using hC
  have hs : (∑ d : Fin 1024, C o d * C o d) = ((∑ d : Fin 1024, c o d * c o d : ℝ) : EReal) := by
    rw [coe_sum]
    refine Finset.sum_congr rfl (fun d _ => ?_)
    rw [hc o d, EReal.coe_mul]
  have hp : (0 : ℝ) < ∑ d : Fin 1024, c o d * c o d := by
    have := hpos o
    rw [hs] at this
    exact_mod_cast this
  refine ⟨Real.sqrt (∑ d : Fin 1024, c o d * c o d), Real.sqrt_pos.mpr hp, ?_⟩
  unfold rNorm
  rw [hs, Ideal.sqrt_coe, if_neg (not_lt.mpr hp.le)]

/-- A normalised entry is a real number: a real times the reciprocal of a positive real. -/
theorem rNc_real (o : Fin 1000) (d : Fin 1024) : ∃ r : ℝ, rNc C o d = (r : EReal) := by
  obtain ⟨n, hn, hN⟩ := rNorm_pos_real C hC hpos o
  obtain ⟨r, hr⟩ := hC o d
  refine ⟨r * (1 / n), ?_⟩
  unfold rNc
  rw [hN, hr, Ideal.div_coe hn.ne', ← EReal.coe_mul]

/-- On a real class the kernel's normalised entry is the reference's: the padded row is the centre's row, so the two norms are the same positive real, the kernel's divisor is that norm, and both sides are the same quotient. -/
theorem kNc_of_lt (o : Fin 1024) (h : o.val < 1000) (d : Fin 1024) : kNc (padC C) o d = rNc C ⟨o.val, h⟩ d := by
  obtain ⟨n, hn, hN⟩ := rNorm_pos_real C hC hpos ⟨o.val, h⟩
  have hrow : ∀ d' : Fin 1024, padC C o d' = C ⟨o.val, h⟩ d' := fun d' => by
    unfold padC
    rw [dif_pos h]
  have hnorm : kNorm (padC C) o = rNorm C ⟨o.val, h⟩ := by
    unfold kNorm rNorm
    refine congrArg Ideal.sqrt (Finset.sum_congr rfl (fun d' _ => ?_))
    rw [hrow d']
  have hsafe : kSafe (padC C) o = rNorm C ⟨o.val, h⟩ := by
    unfold kSafe
    rw [hnorm, hN, if_pos (by exact_mod_cast hn)]
  unfold kNc rNc
  rw [hsafe, hrow d]
end

/-- On the padding the kernel's normalised entry is zero: every entry of the row is zero, so the sum of squares is zero, the norm is zero and not positive, the divisor is one, and zero divided by one is zero. -/
theorem kNc_of_ge (C : Fin 1000 → Fin 1024 → EReal) (o : Fin 1024) (h : 1000 ≤ o.val) (d : Fin 1024) : kNc (padC C) o d = 0 := by
  have hrow : ∀ d' : Fin 1024, padC C o d' = 0 := fun d' => by
    unfold padC
    rw [dif_neg (not_lt.mpr h)]
  have hnorm : kNorm (padC C) o = 0 := by
    unfold kNorm
    have : (∑ d' : Fin 1024, padC C o d' * padC C o d') = 0 :=
      Finset.sum_eq_zero (fun d' _ => by rw [hrow d', mul_zero])
    rw [this, sqrt_zero]
  have hsafe : kSafe (padC C) o = Cert.Spec.one := by
    unfold kSafe
    rw [hnorm, if_neg (lt_irrefl _)]
  unfold kNc
  rw [hsafe, hrow d, one_eq, Ideal.div_coe one_ne_zero, zero_mul]

end Cert.Math

end
-- ==== Proof.MathSim.lean ====
/-
  The similarity side and the final sums. A sum against the one-hot row of the label is the entry at the label; `1 - max` over the padded classes with bottom at the own class and at the padding is the minimum of `1 - s` over the real classes with top at the own class (subtraction from a real reverses the order and sends bottom to top); the 8 tile sums of 1024 rows are the sum over the 8192 rows.
-/
import proofs.«431374_j15917148799611_3_alg».proof.Proof.Spec
import proofs.«431374_j15917148799611_3_alg».proof.Proof.MathNorm
import Mathlib.Data.EReal.Basic
import Mathlib.Data.EReal.Operations
import Mathlib.Data.EReal.Inv
import Mathlib.Algebra.BigOperators.Fin
import Mathlib.Analysis.SpecialFunctions.Pow.Real

noncomputable section

open scoped BigOperators

namespace Cert.Math

open Cert.Spec Idealize.ShloMosaic

/-- Subtraction from a real turns a maximum (with bottom as the empty value) into a minimum (with top as the
empty value): `x ↦ a - x` reverses the order, and `a - ⊥ = ⊤` for a real `a`. -/
theorem sub_fold_max {ι : Type*} (a : ℝ) (g : ι → EReal) (s : Finset ι) :
    (a : EReal) - s.fold max ⊥ g = s.fold min ⊤ (fun o => (a : EReal) - g o) := by
  classical
  refine Finset.induction_on s ?_ ?_
  · rw [Finset.fold_empty, Finset.fold_empty, EReal.coe_sub_bot]
  · intro x s hx ih
    rw [Finset.fold_insert hx, Finset.fold_insert hx, ← ih]
    exact Antitone.map_max (f := fun u : EReal => (a : EReal) - u) (fun u v h => EReal.sub_le_sub le_rfl h)

/-- Tile `t` and row `r` within the tile against the row `i` of the batch: `i = t * 1024 + r`, with `t = i / 1024` and
`r = i % 1024`. -/
def rowEquiv : Fin 8 × Fin 1024 ≃ Fin 8192 where
  toFun x := row x.1 x.2
  invFun i := (⟨i.val / 1024, by omega⟩, ⟨i.val % 1024, by omega⟩)
  left_inv := by
    rintro ⟨t, r⟩
    refine Prod.ext (Fin.ext ?_) (Fin.ext ?_)
    · show (t.val * 1024 + r.val) / 1024 = t.val
      omega
    · show (t.val * 1024 + r.val) % 1024 = r.val
      omega
  right_inv := by
    intro i
    refine Fin.ext ?_
    show i.val / 1024 * 1024 + i.val % 1024 = i.val
    omega

/-- The 8 tiles of 1024 rows enumerate the 8192 rows once each, so the tile sums add up to the sum over the rows. -/
theorem sum_rows (f : Fin 8192 → EReal) :
    ∑ t : Fin 8, ∑ r : Fin 1024, f (row t r) = ∑ i : Fin 8192, f i := by
  rw [← Equiv.sum_comp rowEquiv f, Fintype.sum_prod_type]
  rfl

section
variable (X : Fin 8192 → Fin 1024 → EReal) (C : Fin 1000 → Fin 1024 → EReal)
  (hC : ∀ o d, ∃ r : ℝ, C o d = (r : EReal))
  (hpos : ∀ o : Fin 1000, (0 : EReal) < ∑ d : Fin 1024, C o d * C o d)
include hC hpos

/-- On a real class the kernel's similarity is the reference's: the normalised entries agree term by term. -/
theorem kSims_of_lt (i : Fin 8192) (o : Fin 1024) (h : o.val < 1000) :
    kSims X (padC C) i o = rSims X C i ⟨o.val, h⟩ := by
  unfold kSims rSims
  exact Finset.sum_congr rfl (fun d _ => by rw [kNc_of_lt C hC hpos o h d])
end

section
variable (X : Fin 8192 → Fin 1024 → EReal) (lb : Fin 8192 → Fin 1000) (C : Fin 1000 → Fin 1024 → EReal)
  (hX : ∀ i d, ∃ r : ℝ, X i d = (r : EReal)) (hC : ∀ o d, ∃ r : ℝ, C o d = (r : EReal))
  (hpos : ∀ o : Fin 1000, (0 : EReal) < ∑ d : Fin 1024, C o d * C o d)
include hX hC hpos

/-- The distance to the own class. The sum against the one-hot row of the label keeps the one term at the label, a
real class, where the kernel's similarity is the reference's. -/
theorem kPos_eq (i : Fin 8192) : kPos X lb (padC C) i = rPos X lb C i := by
  have hl : (lb i).val < 1000 := (lb i).isLt
  have hl' : (lb i).val < 1024 := by omega
  unfold kPos rPos
  refine congrArg (fun s => one - s) ?_
  rw [Finset.sum_eq_single (⟨(lb i).val, hl'⟩ : Fin 1024)]
  · rw [if_pos rfl]
    exact kSims_of_lt X C hC hpos i ⟨(lb i).val, hl'⟩ hl
  · intro o _ ho
    rw [if_neg]
    intro h
    exact ho (Fin.ext h.symm)
  · intro h
    exact absurd (Finset.mem_univ _) h

/-- The least distance to another class. `1 - max` is the minimum of `1 - ·`, with top where the maximum had bottom;
the two minima bound each other entry by entry: an entry of either that is not top is an entry of the other. -/
theorem kNeg_eq (i : Fin 8192) : kNeg X lb (padC C) i = rNeg X lb C i := by
  unfold kNeg rNeg
  rw [one_eq, sub_fold_max]
  apply le_antisymm
  · rw [Finset.le_fold_min]
    refine ⟨le_top, fun o _ => ?_⟩
    by_cases ho : lb i = o
    · rw [if_pos ho]
      exact le_top
    · rw [if_neg ho]
      have ho' : o.val < 1024 := by omega
      have hc : ¬ ((lb i).val = o.val ∨ ¬ o.val < 1000) := by
        rintro (h | h)
        · exact ho (Fin.ext h)
        · exact h o.isLt
      refine ((Finset.fold_min_le _).mpr (Or.inr ⟨⟨o.val, ho'⟩, Finset.mem_univ _, le_rfl⟩)).trans ?_
      rw [if_neg hc, kSims_of_lt X C hC hpos i ⟨o.val, ho'⟩ o.isLt]
  · rw [Finset.le_fold_min]
    refine ⟨le_top, fun o _ => ?_⟩
    by_cases hc : (lb i).val = o.val ∨ ¬ o.val < 1000
    · rw [if_pos hc, EReal.coe_sub_bot]
      exact le_top
    · rw [if_neg hc]
      have ho : o.val < 1000 := by
        by_contra h
        exact hc (Or.inr h)
      have hne : ¬ lb i = ⟨o.val, ho⟩ := by
        intro h
        exact hc (Or.inl (congrArg Fin.val h))
      refine ((Finset.fold_min_le _).mpr (Or.inr ⟨⟨o.val, ho⟩, Finset.mem_univ _, le_rfl⟩)).trans ?_
      rw [if_neg hne, kSims_of_lt X C hC hpos i o ho]

/-- With the table side given, a row's loss is the same on both sides. -/
theorem kLoss_eq (hT : ∀ i, kC2c lb (padC C) i = rNegC2c lb C i) (i : Fin 8192) :
    kLoss X lb (padC C) i = rLoss X lb C i := by
  unfold kLoss rLoss
  rw [kPos_eq X lb C hX hC hpos i, kNeg_eq X lb C hX hC hpos i, hT i]

/-- With the table side given, the two results are equal. Row by row the losses agree, and the 8 tile sums of 1024
rows add up to the sum over the 8192 rows. -/
theorem result_eq (hT : ∀ i, kC2c lb (padC C) i = rNegC2c lb C i) : kResult X lb C = rResult X lb C := by
  unfold kResult rResult
  refine congrArg (fun s => Ideal.div s batch) ?_
  have hTile : ∀ t : Fin 8, kTile X lb (padC C) t = ∑ r : Fin 1024, rLoss X lb C (row t r) := by
    intro t
    unfold kTile
    exact Finset.sum_congr rfl (fun r _ => kLoss_eq X lb C hX hC hpos hT (row t r))
  rw [Finset.sum_congr rfl (fun t _ => hTile t)]
  exact sum_rows (fun i => rLoss X lb C i)
end

end Cert.Math

end
-- ==== Proof.MathTable.lean ====
/-
  The table side. The kernel's table entry at a real class is the minimum over the padded range, with top at the class itself and on the padding, of `1 - (normalised centre o) . (centre l)`: the padding entries are top and drop out of a minimum, and the products commute, so it is the reference's minimum over the real classes; and the sum of the table against the label's one-hot row is the entry at the label.
-/
import proofs.«431374_j15917148799611_3_alg».proof.Proof.Spec
import proofs.«431374_j15917148799611_3_alg».proof.Proof.MathNorm
import Mathlib.Data.EReal.Basic
import Mathlib.Data.EReal.Operations
import Mathlib.Data.EReal.Inv
import Mathlib.Algebra.BigOperators.Fin
import Mathlib.Analysis.SpecialFunctions.Pow.Real

noncomputable section

open scoped BigOperators

namespace Cert.Math

open Cert.Spec Idealize.ShloMosaic

section
variable (lb : Fin 8192 → Fin 1000) (C : Fin 1000 → Fin 1024 → EReal)
  (hC : ∀ o d, ∃ r : ℝ, C o d = (r : EReal))
  (hpos : ∀ o : Fin 1000, (0 : EReal) < ∑ d : Fin 1024, C o d * C o d)
include hC hpos

/-- The table entry of the row's class is the reference's least centre-to-centre distance. -/
theorem kC2c_eq (i : Fin 8192) : kC2c lb (padC C) i = rNegC2c lb C i := by
  have hL : (lb i).val < 1024 := lt_trans (lb i).isLt (by norm_num)
  -- The sum against the one-hot row keeps only the term at the label.
  have hsum : kC2c lb (padC C) i = kN2 (padC C) ⟨(lb i).val, hL⟩ := by
    unfold kC2c
    rw [Finset.sum_eq_single (⟨(lb i).val, hL⟩ : Fin 1024)]
    · rw [if_pos rfl]
    · intro o _ ho
      rw [if_neg]
      intro h
      exact ho (Fin.ext h.symm)
    · intro h
      exact absurd (Finset.mem_univ _) h
  -- At a real class o the kernel's entry is the reference's: the own-class conditions match, the
  -- normalised entries agree, the padded centre at the label is the centre, and the products commute.
  have hpt : ∀ (o : Fin 1024) (h : o.val < 1000),
      (if o = (⟨(lb i).val, hL⟩ : Fin 1024) ∨ 1000 ≤ o.val then (⊤ : EReal)
        else one - kM (padC C) o ⟨(lb i).val, hL⟩)
        = (if lb i = ⟨o.val, h⟩ then (⊤ : EReal) else one - rC2c C (lb i) ⟨o.val, h⟩) := by
    intro o h
    have hcond : (o = (⟨(lb i).val, hL⟩ : Fin 1024) ∨ 1000 ≤ o.val) ↔ lb i = ⟨o.val, h⟩ := by
      constructor
      · rintro (h1 | h1)
        · exact Fin.ext (congrArg Fin.val h1).symm
        · omega
      · intro h1
        left
        exact Fin.ext (congrArg Fin.val h1).symm
    have hkM : kM (padC C) o ⟨(lb i).val, hL⟩ = rC2c C (lb i) ⟨o.val, h⟩ := by
      unfold kM rC2c
      apply Finset.sum_congr rfl
      intro d _
      rw [kNc_of_lt C hC hpos o h d, mul_comm]
      congr 1
      unfold padC
      rw [dif_pos (lb i).isLt]
    by_cases hc : lb i = ⟨o.val, h⟩
    · rw [if_pos (hcond.mpr hc), if_pos hc]
    · rw [if_neg (fun h' => hc (hcond.mp h')), if_neg hc, hkM]
  -- On the padding the kernel's entry is top.
  have hpad : ∀ (o : Fin 1024), ¬ o.val < 1000 →
      (if o = (⟨(lb i).val, hL⟩ : Fin 1024) ∨ 1000 ≤ o.val then (⊤ : EReal)
        else one - kM (padC C) o ⟨(lb i).val, hL⟩) = ⊤ := by
    intro o h
    rw [if_pos (Or.inr (by omega))]
  rw [hsum]
  unfold kN2 rNegC2c
  rw [if_pos (lb i).isLt]
  -- Each minimum is below every entry of the other.
  apply le_antisymm
  · rw [Finset.le_fold_min]
    refine ⟨le_top, ?_⟩
    intro o _
    rw [Finset.fold_min_le]
    right
    refine ⟨⟨o.val, lt_trans o.isLt (by norm_num)⟩, Finset.mem_univ _, ?_⟩
    rw [hpt ⟨o.val, lt_trans o.isLt (by norm_num)⟩ o.isLt]
  · rw [Finset.le_fold_min]
    refine ⟨le_top, ?_⟩
    intro o _
    by_cases h : o.val < 1000
    · rw [hpt o h, Finset.fold_min_le]
      right
      exact ⟨⟨o.val, h⟩, Finset.mem_univ _, le_refl _⟩
    · rw [hpad o h]
      exact le_top
end

end Cert.Math

end
-- ==== Proof.lean ====
/-
  The certificate's five claims.

  The kernel computes a two-term hinge loss over a batch of rows against normalised class centres in three launches
  (normalise the padded centres; tabulate per class the least centre-to-centre distance; per tile of 1024 rows the
  summed loss), the reference in plain array operations. Under the precondition — finite float inputs, every label a
  class in 0 … 999, every centre with a positive sum of squares — the two results are one extended real:

  * on a real class the kernel's guarded divisor is the centre's norm, which is positive, so the normalised centres
    agree; on the 24 padding rows the kernel's are zero and every use of them is masked;
  * a sum against the one-hot row of a label is the entry at the label, which is the reference's gather;
  * `1 - max` of the similarities with bottom at the own class and on the padding is the reference's minimum of
    `1 - similarity` with top at the own class: subtraction from a real reverses the order and sends bottom to top, and
    top entries drop out of a minimum (the kernel's finite fill, named minus infinity, is that bottom);
  * the eight tile sums add up to the sum over the batch, and both sides divide by the same word.

  The frames of the two kernel programs are the launch theorem over their three regions; the reference's frame is its
  run with the result dropped. The two named constants are the idealisation's two ledger entries.
-/
import proofs.«431374_j15917148799611_3_alg».proof.Defs
import proofs.«431374_j15917148799611_3_alg».proof.Proof.Gen.Kernel
import proofs.«431374_j15917148799611_3_alg».proof.Proof.Gen.KernelIdeal
import proofs.«431374_j15917148799611_3_alg».proof.Proof.Gen.ReferenceIdeal
import proofs.«431374_j15917148799611_3_alg».proof.Proof.Gen.Pre_finite_inputs
import proofs.«431374_j15917148799611_3_alg».proof.Proof.FrameKernelP
import proofs.«431374_j15917148799611_3_alg».proof.Proof.FrameKernelIdealP
import proofs.«431374_j15917148799611_3_alg».proof.Proof.KValue
import proofs.«431374_j15917148799611_3_alg».proof.Proof.RefB
import proofs.«431374_j15917148799611_3_alg».proof.Proof.PreDecode
import proofs.«431374_j15917148799611_3_alg».proof.Proof.MathSim
import proofs.«431374_j15917148799611_3_alg».proof.Proof.MathTable
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_k : Cert.frame_Kernel := fun m ρ _ => Cert.Kernel.GenP.frame m ρ

/-- So does the idealised kernel. -/
theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two ledger entries: the table gives the positive fill the value top and the negative fill the value bottom. -/
theorem preserves : Cert.preserves_Kernel_KernelIdeal := by
  show IdealRules.named_const.Statement Cert.KernelIdeal.κ "pos_big" .f32 0x7149F2CA#32 ⊤
    ∧ IdealRules.named_const.Statement Cert.KernelIdeal.κ "neg_big" .f32 0xF149F2CA#32 ⊥
  exact And.intro (IdealRules.named_const.statement Cert.KernelIdeal.κ "pos_big" .f32 0x7149F2CA#32 ⊤ rfl)
    (IdealRules.named_const.statement Cert.KernelIdeal.κ "neg_big" .f32 0xF149F2CA#32 ⊥ rfl)

/-- From memories that agree on the arguments both programs end at the same extended real: the kernel's result is
    `Spec.kResult` of the arguments, the reference's `Spec.rResult`, and under the precondition the two are equal. -/
theorem algebraic : Cert.algebraic_KernelIdeal_ReferenceIdeal := by
  intro m ρ m' ρ' hpre hagree
  -- what the precondition says of each device's arguments
  have hd := fun c : Dev Cert.KernelIdeal.nD => Cert.PreDecode.decode _ _ _ (hpre c)
  -- each row's class
  let lb : Dev Cert.KernelIdeal.nD → Fin 8192 → Fin 1000 := fun c => Classical.choose (hd c).2.2.1
  have hlb := fun c => Classical.choose_spec (hd c).2.2.1
  refine ⟨fun c _ => Cert.Spec.kResult (Cert.KernelIdeal.Value.Xm m c) (lb c) (Cert.KernelIdeal.Value.Cm m c), ?_, ?_⟩
  · exact (θ_run Cert.KernelIdeal.defs _ _).mono
      (fun r h c => ⟨(h c).1.trans (Cert.KernelIdeal.Value.result m ρ c (lb c) (hlb c)), (h c).2⟩)
      (Cert.KernelIdeal.GenP.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, (hagree c).1, (hagree c).2.1, (hagree c).2.2,
      Cert.ReferenceIdeal.RefB.result _ _ _ (lb c) (hlb c)]
    funext _
    exact (Cert.Math.result_eq _ (lb c) _ (hd c).1 (hd c).2.1 (hd c).2.2.2
      (fun i => Cert.Math.kC2c_eq (lb c) _ (hd c).2.1 (hd c).2.2.2 i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
